-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x2 : Shape := ⟨3, ![32, 1024, 2]⟩
abbrev S32x2x1024x1024 : Shape := ⟨4, ![32, 2, 1024, 1024]⟩
abbrev S32x1024x32 : Shape := ⟨3, ![32, 1024, 32]⟩
abbrev S170x64 : Shape := ⟨2, ![170, 64]⟩
abbrev S64 : Shape := ⟨1, ![64]⟩
abbrev S170x32 : Shape := ⟨2, ![170, 32]⟩
abbrev S32 : Shape := ⟨1, ![32]⟩
abbrev S_ : Shape := ⟨0, ![]⟩

class Facts : Prop where
  bcast_S_S32x1024x2 : S_.BroadcastsInDim S32x1024x2 (![] : Fin 0 → Fin S32x1024x2.rank)
  reducesTo_S32x1024x2_S_d0_1_2 : S32x1024x2.ReducesTo [0, 1, 2] S_
  h_S_ : 0 < S_.numel
  bcast_S_S32x2x1024x1024 : S_.BroadcastsInDim S32x2x1024x1024 (![] : Fin 0 → Fin S32x2x1024x1024.rank)
  reducesTo_S32x2x1024x1024_S_d0_1_2_3 : S32x2x1024x1024.ReducesTo [0, 1, 2, 3] S_
  bcast_S_S32x1024x32 : S_.BroadcastsInDim S32x1024x32 (![] : Fin 0 → Fin S32x1024x32.rank)
  reducesTo_S32x1024x32_S_d0_1_2 : S32x1024x32.ReducesTo [0, 1, 2] S_
  bcast_S_S170x64 : S_.BroadcastsInDim S170x64 (![] : Fin 0 → Fin S170x64.rank)
  reducesTo_S170x64_S_d0_1 : S170x64.ReducesTo [0, 1] S_
  bcast_S_S64 : S_.BroadcastsInDim S64 (![] : Fin 0 → Fin S64.rank)
  reducesTo_S64_S_d0 : S64.ReducesTo [0] S_
  bcast_S_S170x32 : S_.BroadcastsInDim S170x32 (![] : Fin 0 → Fin S170x32.rank)
  reducesTo_S170x32_S_d0_1 : S170x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S64 .f32) (main_arg5 : FVec F S170x32 .f32) (main_arg6 : FVec F S32 .f32) (main_v13 : IVec S_ 1) (main_v16 : IVec S170x64 1) : IVec S_ 1 :=
  let main_c_5 : IVec S_ 1 := constantI S_ 1 1#1
  let main_v17 : IVec S_ 1 := (fun x v => Host.reduce IntOp.andi x v reducesTo_S170x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S170x32 .f32 := Host.absf main_arg5
  let main_cst_8 : FVec F S_ .f32 := constant S_ .f32 0x7F800000#32
  let main_v25 : FVec F S170x32 .f32 := broadcastInDim S170x32 ![] bcast_S_S170x32 main_cst_8
  let main_v26 : IVec S170x32 1 := cmpf .olt main_v24 main_v25
  let main_c_9 : IVec S_ 1 := constantI S_ 1 1#1
  let main_v27 : IVec S_ 1 := (fun x v => Host.reduce IntOp.andi x v reducesTo_S170x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S32x1024x2 .f32) (main_arg1 : FVec F S32x2x1024x1024 .f32) (main_arg2 : FVec F S32x1024x32 .f32) (main_arg3 : FVec F S170x64 .f32) (main_arg4 : FVec F S64 .f32) (main_arg5 : FVec F S170x32 .f32) (main_arg6 : FVec F S32 .f32) : IVec S_ 1 :=
  let main_v0 : FVec F S32x1024x2 .f32 := Host.absf main_arg0
  let main_cst : FVec F S_ .f32 := constant S_ .f32 0x7F800000#32
  let main_v1 : FVec F S32x1024x2 .f32 := broadcastInDim S32x1024x2 ![] bcast_S_S32x1024x2 main_cst
  let main_v2 : IVec S32x1024x2 1 := cmpf .olt main_v0 main_v1
  let main_c : IVec S_ 1 := constantI S_ 1 1#1
  let main_v3 : IVec S_ 1 := (fun x v => Host.reduce IntOp.andi x v reducesTo_S32x1024x2_S_d0_1_2 h_S_) main_v2 main_c
  let main_v4 : FVec F S32x2x1024x1024 .f32 := Host.absf main_arg1
  let main_cst_0 : FVec F S_ .f32 := constant S_ .f32 0x7F800000#32
  let main_v5 : FVec F S32x2x1024x1024 .f32 := broadcastInDim S32x2x1024x1024 ![] bcast_S_S32x2x1024x1024 main_cst_0
  let main_v6 : IVec S32x2x1024x1024 1 := cmpf .olt main_v4 main_v5
  let main_c_1 : IVec S_ 1 := constantI S_ 1 1#1
  let main_v7 : IVec S_ 1 := (fun x v => Host.reduce IntOp.andi x v reducesTo_S32x2x1024x1024_S_d0_1_2_3 h_S_) main_v6 main_c_1
  let main_v8 : IVec S_ 1 := andi main_v3 main_v7
  let main_v9 : FVec F S32x1024x32 .f32 := Host.absf main_arg2
  let main_cst_2 : FVec F S_ .f32 := constant S_ .f32 0x7F800000#32
  let main_v10 : FVec F S32x1024x32 .f32 := broadcastInDim S32x1024x32 ![] bcast_S_S32x1024x32 main_cst_2
  let main_v11 : IVec S32x1024x32 1 := cmpf .olt main_v9 main_v10
  let main_c_3 : IVec S_ 1 := constantI S_ 1 1#1
  let main_v12 : IVec S_ 1 := (fun x v => Host.reduce IntOp.andi x v reducesTo_S32x1024x32_S_d0_1_2 h_S_) main_v11 main_c_3
  let main_v13 : IVec S_ 1 := andi main_v8 main_v12
  let main_v14 : FVec F S170x64 .f32 := Host.absf main_arg3
  let main_cst_4 : FVec F S_ .f32 := constant S_ .f32 0x7F800000#32
  let main_v15 : FVec F S170x64 .f32 := broadcastInDim S170x64 ![] bcast_S_S170x64 main_cst_4
  let main_v16 : IVec S170x64 1 := cmpf .olt main_v14 main_v15
  fn_part1 (F := F) main_arg4 main_arg5 main_arg6 main_v13 main_v16
-- ==== Kernel.lean ====
abbrev S32x1024x2 : Shape := ⟨3, ![32, 1024, 2]⟩
abbrev S32x2x1024x1024 : Shape := ⟨4, ![32, 2, 1024, 1024]⟩
abbrev S32x1024x32 : Shape := ⟨3, ![32, 1024, 32]⟩
abbrev S170x64 : Shape := ⟨2, ![170, 64]⟩
abbrev S64 : Shape := ⟨1, ![64]⟩
abbrev S170x32 : Shape := ⟨2, ![170, 32]⟩
abbrev S32 : Shape := ⟨1, ![32]⟩
abbrev S1x64 : Shape := ⟨2, ![1, 64]⟩
abbrev S1x32 : Shape := ⟨2, ![1, 32]⟩
abbrev S1x1024x2 : Shape := ⟨3, ![1, 1024, 2]⟩
abbrev S1x2x1024x1024 : Shape := ⟨4, ![1, 2, 1024, 1024]⟩
abbrev S1x1024x32 : Shape := ⟨3, ![1, 1024, 32]⟩
abbrev S1024x2 : Shape := ⟨2, ![1024, 2]⟩
abbrev S1024x32 : Shape := ⟨2, ![1024, 32]⟩
abbrev S1024x34 : Shape := ⟨2, ![1024, 34]⟩
abbrev S1x1x1024x1024 : Shape := ⟨4, ![1, 1, 1024, 1024]⟩
abbrev S1024x1024 : Shape := ⟨2, ![1024, 1024]⟩
abbrev S1024x170 : Shape := ⟨2, ![1024, 170]⟩
abbrev S1024x64 : Shape := ⟨2, ![1024, 64]⟩

abbrev nBuf : Space → Nat
  | .hbm => 11
  | .vmem => 14
  | .smem => 0
  | _ => 0

abbrev bufTy : (tb : Table) → Fin (tcTables nBuf tb) → BufTy
  | .hbm, ⟨0, _⟩ => ⟨S32x1024x2, .f32⟩
  | .hbm, ⟨1, _⟩ => ⟨S32x2x1024x1024, .f32⟩
  | .hbm, ⟨2, _⟩ => ⟨S32x1024x32, .f32⟩
  | .hbm, ⟨3, _⟩ => ⟨S170x64, .f32⟩
  | .hbm, ⟨4, _⟩ => ⟨S64, .f32⟩
  | .hbm, ⟨5, _⟩ => ⟨S170x32, .f32⟩
  | .hbm, ⟨6, _⟩ => ⟨S32, .f32⟩
  | .hbm, ⟨7, _⟩ => ⟨S1x64, .f32⟩
  | .hbm, ⟨8, _⟩ => ⟨S1x32, .f32⟩
  | .hbm, ⟨9, _⟩ => ⟨S32x1024x32, .f32⟩
  | .hbm, ⟨10, _⟩ => ⟨S32x1024x32, .f32⟩
  | .local _ .vmem, ⟨0, _⟩ => ⟨S1x1024x2, .f32⟩
  | .local _ .vmem, ⟨1, _⟩ => ⟨S1x1024x2, .f32⟩
  | .local _ .vmem, ⟨2, _⟩ => ⟨S1x2x1024x1024, .f32⟩
  | .local _ .vmem, ⟨3, _⟩ => ⟨S1x2x1024x1024, .f32⟩
  | .local _ .vmem, ⟨4, _⟩ => ⟨S1x1024x32, .f32⟩
  | .local _ .vmem, ⟨5, _⟩ => ⟨S1x1024x32, .f32⟩
  | .local _ .vmem, ⟨6, _⟩ => ⟨S170x64, .f32⟩
  | .local _ .vmem, ⟨7, _⟩ => ⟨S1x64, .f32⟩
  | .local _ .vmem, ⟨8, _⟩ => ⟨S170x32, .f32⟩
  | .local _ .vmem, ⟨9, _⟩ => ⟨S1x32, .f32⟩
  | .local _ .vmem, ⟨10, _⟩ => ⟨S1x1024x32, .f32⟩
  | .local _ .vmem, ⟨11, _⟩ => ⟨S1x1024x32, .f32⟩
  | .local _ .vmem, ⟨12, _⟩ => ⟨S1x1024x32, .f32⟩
  | .local _ .vmem, ⟨13, _⟩ => ⟨S1x1024x32, .f32⟩
  | _, _ => ⟨S32x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S170x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S170x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S64_S1x64 : S64.ShapeCasts S1x64
  shapeCasts_S32_S1x32 : S32.ShapeCasts S1x32
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  inb_S170x64_S170x64_0_0 : ∀ a, (![0, 0] : Fin 2 → Nat) a + S170x64.size a ≤ S170x64.size a
  h_S170x64 : 0 < S170x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S170x32_S170x32_0_0 : ∀ a, (![0, 0] : Fin 2 → Nat) a + S170x32.size a ≤ S170x32.size a
  h_S170x32 : 0 < S170x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  concatenates_S1024x2_S1024x32_S1024x34_d1 : Shape.Concatenates [S1024x2, S1024x32] S1024x34 1
  inb_S1x2x1024x1024_S1x1x1024x1024_0_0_0_0 : ∀ a, (![0, 0, 0, 0] : Fin 4 → Nat) a + S1x1x1024x1024.size a ≤ S1x2x1024x1024.size a
  h_S1x1x1024x1024 : 0 < S1x1x1024x1024.numel
  shapeCasts_S1x1x1024x1024_S1024x1024 : S1x1x1024x1024.ShapeCasts S1024x1024
  inb_S1x2x1024x1024_S1x1x1024x1024_0_1_0_0 : ∀ a, (![0, 1, 0, 0] : Fin 4 → Nat) a + S1x1x1024x1024.size a ≤ S1x2x1024x1024.size a
  concatenates_S1024x34_S1024x34_S1024x34_S1024x34_S1024x34_S1024x170_d1 : Shape.Concatenates [S1024x34, S1024x34, S1024x34, S1024x34, S1024x34] S1024x170 1
  broadcasts_S1x64_S1024x64 : S1x64.Broadcasts S1024x64
  slices_S1024x64_o0_0_S1024x32 : S1024x64.Slices ![0, 0] S1024x32
  slices_S1024x64_o0_32_S1024x32 : S1024x64.Slices ![0, 32] S1024x32
  broadcasts_S1x32_S1024x32 : S1x32.Broadcasts S1024x32
  shapeCasts_S1024x32_S1x1024x32 : S1024x32.ShapeCasts S1x1024x32
  dot_S1024x1024_S1024x34_S1024x34_1_0_0_1_n_n_wf : DotDims.WF S1024x1024 S1024x34 S1024x34 [1] [0] [0] [1] [] []
  dot_S1024x170_S170x64_S1024x64_1_0_0_1_n_n_wf : DotDims.WF S1024x170 S170x64 S1024x64 [1] [0] [0] [1] [] []
  dot_S1024x170_S170x32_S1024x32_1_0_0_1_n_n_wf : DotDims.WF S1024x170 S170x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2.size a ≤ S32x1024x2.size a
  hwx0_0 : ∀ i : grid0.Coords, EltTy.bits .f32 = 32 ∨ (Rect.block (s := S32x1024x2) S1x1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x1024x1024.size a ≤ S32x2x1024x1024.size a
  hwx0_1 : ∀ i : grid0.Coords, EltTy.bits .f32 = 32 ∨ (Rect.block (s := S32x2x1024x1024) S1x2x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x32.size a ≤ S32x1024x32.size a
  hwx0_2 : ∀ i : grid0.Coords, EltTy.bits .f32 = 32 ∨ (Rect.block (s := S32x1024x32) S1x1024x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S170x64.size a ≤ S170x64.size a
  hwx0_3 : ∀ i : grid0.Coords, EltTy.bits .f32 = 32 ∨ (Rect.block (s := S170x64) S170x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S170x32.size a ≤ S170x32.size a
  hwx0_5 : ∀ i : grid0.Coords, EltTy.bits .f32 = 32 ∨ (Rect.block (s := S170x32) S170x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x32.size a ≤ S32x1024x32.size a
  hwx0_7 : ∀ i : grid0.Coords, EltTy.bits .f32 = 32 ∨ (Rect.block (s := S32x1024x32) S1x1024x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x32.size a ≤ S32x1024x32.size a
  hwx0_8 : ∀ i : grid0.Coords, EltTy.bits .f32 = 32 ∨ (Rect.block (s := S32x1024x32) S1x1024x32.size (cc0_transform_8 i) (hinb0_8 i)).WholeWords (EltTy.packing .f32)

variable [Facts₀]

def dot_S1024x1024_S1024x34_S1024x34_1_0_0_1_n_n : DotDims S1024x1024 S1024x34 S1024x34 where
  lhsContracting := [1]
  rhsContracting := [0]
  lhsNonContracting := [0]
  rhsNonContracting := [1]
  lhsBatch := []
  rhsBatch := []
  wf := dot_S1024x1024_S1024x34_S1024x34_1_0_0_1_n_n_wf
def dot_S1024x170_S170x64_S1024x64_1_0_0_1_n_n : DotDims S1024x170 S170x64 S1024x64 where
  lhsContracting := [1]
  rhsContracting := [0]
  lhsNonContracting := [0]
  rhsNonContracting := [1]
  lhsBatch := []
  rhsBatch := []
  wf := dot_S1024x170_S170x64_S1024x64_1_0_0_1_n_n_wf
def dot_S1024x170_S170x32_S1024x32_1_0_0_1_n_n : DotDims S1024x170 S170x32 S1024x32 where
  lhsContracting := [1]
  rhsContracting := [0]
  lhsNonContracting := [0]
  rhsNonContracting := [1]
  lhsBatch := []
  rhsBatch := []
  wf := dot_S1024x170_S170x32_S1024x32_1_0_0_1_n_n_wf

abbrev win0_0 : Pipeline.Window sig grid0 :=
  Pipeline.Window.ofSpec (Memref.whole main_arg0) S1x1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S170x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S170x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S1x1024x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S1x1024x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x1024x2 : Shape := ⟨3, ![32, 1024, 2]⟩
abbrev S32x2x1024x1024 : Shape := ⟨4, ![32, 2, 1024, 1024]⟩
abbrev S32x1024x32 : Shape := ⟨3, ![32, 1024, 32]⟩
abbrev S170x64 : Shape := ⟨2, ![170, 64]⟩
abbrev S64 : Shape := ⟨1, ![64]⟩
abbrev S170x32 : Shape := ⟨2, ![170, 32]⟩
abbrev S32 : Shape := ⟨1, ![32]⟩
abbrev S32x1024x34 : Shape := ⟨3, ![32, 1024, 34]⟩
abbrev S32x1x1024x1024 : Shape := ⟨4, ![32, 1, 1024, 1024]⟩
abbrev S32x1024x1024 : Shape := ⟨3, ![32, 1024, 1024]⟩
abbrev S32x1024x170 : Shape := ⟨3, ![32, 1024, 170]⟩
abbrev S32x1024x64 : Shape := ⟨3, ![32, 1024, 64]⟩
abbrev S1x1x64 : Shape := ⟨3, ![1, 1, 64]⟩
abbrev S_ : Shape := ⟨0, ![]⟩
abbrev S1x1x32 : Shape := ⟨3, ![1, 1, 32]⟩

abbrev nBuf : Space → Nat
  | .hbm => 53
  | .vmem => 0
  | .smem => 0
  | _ => 0

abbrev bufTy : (tb : Table) → Fin (tcTables nBuf tb) → BufTy
  | .hbm, ⟨0, _⟩ => ⟨S32x1024x2, .f32⟩
  | .hbm, ⟨1, _⟩ => ⟨S32x2x1024x1024, .f32⟩
  | .hbm, ⟨2, _⟩ => ⟨S32x1024x32, .f32⟩
  | .hbm, ⟨3, _⟩ => ⟨S170x64, .f32⟩
  | .hbm, ⟨4, _⟩ => ⟨S64, .f32⟩
  | .hbm, ⟨5, _⟩ => ⟨S170x32, .f32⟩
  | .hbm, ⟨6, _⟩ => ⟨S32, .f32⟩
  | .hbm, ⟨7, _⟩ => ⟨S32x1024x34, .f32⟩
  | .hbm, ⟨8, _⟩ => ⟨S32x1x1024x1024, .f32⟩
  | .hbm, ⟨9, _⟩ => ⟨S32x1024x1024, .f32⟩
  | .hbm, ⟨10, _⟩ => ⟨S32x1024x34, .f32⟩
  | .hbm, ⟨11, _⟩ => ⟨S32x1024x34, .f32⟩
  | .hbm, ⟨12, _⟩ => ⟨S32x1x1024x1024, .f32⟩
  | .hbm, ⟨13, _⟩ => ⟨S32x1024x1024, .f32⟩
  | .hbm, ⟨14, _⟩ => ⟨S32x1024x34, .f32⟩
  | .hbm, ⟨15, _⟩ => ⟨S32x1024x34, .f32⟩
  | .hbm, ⟨16, _⟩ => ⟨S32x1024x170, .f32⟩
  | .hbm, ⟨17, _⟩ => ⟨S32x1024x64, .f32⟩
  | .hbm, ⟨18, _⟩ => ⟨S1x1x64, .f32⟩
  | .hbm, ⟨19, _⟩ => ⟨S32x1024x64, .f32⟩
  | .hbm, ⟨20, _⟩ => ⟨S32x1024x64, .f32⟩
  | .hbm, ⟨21, _⟩ => ⟨S32x1024x64, .f32⟩
  | .hbm, ⟨22, _⟩ => ⟨S32x1024x64, .f32⟩
  | .hbm, ⟨23, _⟩ => ⟨S_, .f32⟩
  | .hbm, ⟨24, _⟩ => ⟨S32x1024x64, .f32⟩
  | .hbm, ⟨25, _⟩ => ⟨S32x1024x64, .f32⟩
  | .hbm, ⟨26, _⟩ => ⟨S_, .f32⟩
  | .hbm, ⟨27, _⟩ => ⟨S32x1024x64, .f32⟩
  | .hbm, ⟨28, _⟩ => ⟨S32x1024x64, .f32⟩
  | .hbm, ⟨29, _⟩ => ⟨S32x1024x32, .f32⟩
  | .hbm, ⟨30, _⟩ => ⟨S32x1024x32, .f32⟩
  | .hbm, ⟨31, _⟩ => ⟨S32x1024x32, .f32⟩
  | .hbm, ⟨32, _⟩ => ⟨S32x1024x34, .f32⟩
  | .hbm, ⟨33, _⟩ => ⟨S32x1x1024x1024, .f32⟩
  | .hbm, ⟨34, _⟩ => ⟨S32x1024x1024, .f32⟩
  | .hbm, ⟨35, _⟩ => ⟨S32x1024x34, .f32⟩
  | .hbm, ⟨36, _⟩ => ⟨S32x1024x34, .f32⟩
  | .hbm, ⟨37, _⟩ => ⟨S32x1x1024x1024, .f32⟩
  | .hbm, ⟨38, _⟩ => ⟨S32x1024x1024, .f32⟩
  | .hbm, ⟨39, _⟩ => ⟨S32x1024x34, .f32⟩
  | .hbm, ⟨40, _⟩ => ⟨S32x1024x34, .f32⟩
  | .hbm, ⟨41, _⟩ => ⟨S32x1024x170, .f32⟩
  | .hbm, ⟨42, _⟩ => ⟨S32x1024x32, .f32⟩
  | .hbm, ⟨43, _⟩ => ⟨S1x1x32, .f32⟩
  | .hbm, ⟨44, _⟩ => ⟨S32x1024x32, .f32⟩
  | .hbm, ⟨45, _⟩ => ⟨S32x1024x32, .f32⟩
  | .hbm, ⟨46, _⟩ => ⟨S32x1024x32, .f32⟩
  | .hbm, ⟨47, _⟩ => ⟨S32x1024x32, .f32⟩
  | .hbm, ⟨48, _⟩ => ⟨S_, .f32⟩
  | .hbm, ⟨49, _⟩ => ⟨S32x1024x32, .f32⟩
  | .hbm, ⟨50, _⟩ => ⟨S32x1024x32, .f32⟩
  | .hbm, ⟨51, _⟩ => ⟨S32x1024x32, .f32⟩
  | .hbm, ⟨52, _⟩ => ⟨S32x1024x32, .f32⟩
  | _, _ => ⟨S32x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_1 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]

class Facts₀ : Prop where
  concatenates_S32x1024x2_S32x1024x32_S32x1024x34_d2 : Shape.Concatenates [S32x1024x2, S32x1024x32] S32x1024x34 2
  slices_S32x2x1024x1024_S32x1x1024x1024_0_0_0_0 : S32x2x1024x1024.Slices ![0, 0, 0, 0] S32x1x1024x1024
  shapeCasts_S32x1x1024x1024_S32x1024x1024 : S32x1x1024x1024.ShapeCasts S32x1024x1024
  slices_S32x2x1024x1024_S32x1x1024x1024_0_1_0_0 : S32x2x1024x1024.Slices ![0, 1, 0, 0] S32x1x1024x1024
  concatenates_S32x1024x34_S32x1024x34_S32x1024x34_S32x1024x34_S32x1024x34_S32x1024x170_d2 : Shape.Concatenates [S32x1024x34, S32x1024x34, S32x1024x34, S32x1024x34, S32x1024x34] S32x1024x170 2
  bcast_S64_S1x1x64_2 : S64.BroadcastsInDim S1x1x64 (![2] : Fin 1 → Fin S1x1x64.rank)
  bcast_S1x1x64_S32x1024x64_0_1_2 : S1x1x64.BroadcastsInDim S32x1024x64 (![0, 1, 2] : Fin 3 → Fin S32x1024x64.rank)
  bcast_S_S32x1024x64 : S_.BroadcastsInDim S32x1024x64 (![] : Fin 0 → Fin S32x1024x64.rank)
  slices_S32x1024x64_S32x1024x32_0_0_0 : S32x1024x64.Slices ![0, 0, 0] S32x1024x32
  slices_S32x1024x64_S32x1024x32_0_0_32 : S32x1024x64.Slices ![0, 0, 32] S32x1024x32
  bcast_S32_S1x1x32_2 : S32.BroadcastsInDim S1x1x32 (![2] : Fin 1 → Fin S1x1x32.rank)
  bcast_S1x1x32_S32x1024x32_0_1_2 : S1x1x32.BroadcastsInDim S32x1024x32 (![0, 1, 2] : Fin 3 → Fin S32x1024x32.rank)
  bcast_S_S32x1024x32 : S_.BroadcastsInDim S32x1024x32 (![] : Fin 0 → Fin S32x1024x32.rank)
  dot_S32x1024x1024_S32x1024x34_S32x1024x34_2_1_1_2_0_0_wf : DotDims.WF S32x1024x1024 S32x1024x34 S32x1024x34 [2] [1] [1] [2] [0] [0]
  dot_S32x1024x170_S170x64_S32x1024x64_2_0_01_1_n_n_wf : DotDims.WF S32x1024x170 S170x64 S32x1024x64 [2] [0] [0, 1] [1] [] []
  dot_S32x1024x170_S170x32_S32x1024x32_2_0_01_1_n_n_wf : DotDims.WF S32x1024x170 S170x32 S32x1024x32 [2] [0] [0, 1] [1] [] []

variable [Facts₀]

def dot_S32x1024x1024_S32x1024x34_S32x1024x34_2_1_1_2_0_0 : DotDims S32x1024x1024 S32x1024x34 S32x1024x34 where
  lhsContracting := [2]
  rhsContracting := [1]
  lhsNonContracting := [1]
  rhsNonContracting := [2]
  lhsBatch := [0]
  rhsBatch := [0]
  wf := dot_S32x1024x1024_S32x1024x34_S32x1024x34_2_1_1_2_0_0_wf
def dot_S32x1024x170_S170x64_S32x1024x64_2_0_01_1_n_n : DotDims S32x1024x170 S170x64 S32x1024x64 where
  lhsContracting := [2]
  rhsContracting := [0]
  lhsNonContracting := [0, 1]
  rhsNonContracting := [1]
  lhsBatch := []
  rhsBatch := []
  wf := dot_S32x1024x170_S170x64_S32x1024x64_2_0_01_1_n_n_wf
def dot_S32x1024x170_S170x32_S32x1024x32_2_0_01_1_n_n : DotDims S32x1024x170 S170x32 S32x1024x32 where
  lhsContracting := [2]
  rhsContracting := [0]
  lhsNonContracting := [0, 1]
  rhsNonContracting := [1]
  lhsBatch := []
  rhsBatch := []
  wf := dot_S32x1024x170_S170x32_S32x1024x32_2_0_01_1_n_n_wf

class Facts : Prop extends Facts₀ where

variable [Facts]
-- ==== Proof.LibHostCat.lean ====
/-
  The result of a host operation, read at its own reference, is the operation's function of its operands' contents.
  Here that is stated with the function HELD BACK, for an operation of two operands and for one of FIVE (the library
  states the operand-by-operand form for four): the operands' contents, each at its own reference, stand as plain
  arguments of an application (ap2, ap5) instead of being substituted into the function's body. For a concatenation
  the body is a list of pieces; held back, each operand can still be rewritten to its own value, reference by
  reference, before the application is opened, which is then a matter of unfolding.
-/
import Idealize.ShloMosaic.Lib.StableHlo.Run

noncomputable section

namespace Cert.LibHostCat

open Idealize.ShloMosaic Idealize.ShloMosaic.StableHlo

variable {τ : Topo} {sig : RefSig} {Val : EltTy → Type}

/-- A two-argument function applied, the application held back. -/
def ap2 {α β γ : Type} (f : α → β → γ) (u : α) (v : β) : γ := f u v

/-- A function of a family of five, applied to five given members, the application held back. -/
def ap5 {α : Fin 5 → Type} {γ : Type} (f : ((k : Fin 5) → α k) → γ) (u0 : α 0) (u1 : α 1) (u2 : α 2) (u3 : α 3) (u4 : α 4) : γ :=
  f (Fin.cons u0 (Fin.cons u1 (Fin.cons u2 (Fin.cons u3 (Fin.cons u4 (fun i => i.elim0))))))

section
variable {a b y : Ref sig .tc}

/-- The result of a two-operand host operation at its own reference: its function, held back, of the operands'
    contents. -/
theorem binary_result_ap (f : a.ty.Contents Val → b.ty.Contents Val → y.ty.Contents Val) (ha hb hy) (F : Valuation τ sig Val) :
    (binary (τ := τ) a b y f ha hb hy).result F (no_index (Proc.devRef .tc y)) = ap2 f (F (Proc.devRef .tc a)) (F (Proc.devRef .tc b)) :=
  binary_result a b y f ha hb hy F
end

section
variable {x a b c d y : Ref sig .tc}

/-- The result of a five-operand host operation at its own reference: its function, held back, of the five operands'
    contents, each at its own reference. -/
theorem nary5_result_ap
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (no_index (Proc.devRef .tc y))
      = ap5 (α := fun k => ((![x, a, b, c, d] : Fin 5 → Ref sig .tc) k).ty.Contents Val) f
          (F (Proc.devRef .tc x)) (F (Proc.devRef .tc a)) (F (Proc.devRef .tc b)) (F (Proc.devRef .tc c)) (F (Proc.devRef .tc d)) := by
  show (nary (τ := τ) ![x, a, b, c, d] y f hxs hy).result F (Proc.devRef .tc y) = _
  rw [nary_result]; unfold ap5; congr 1; funext k; fin_cases k <;> rfl
end

end Cert.LibHostCat

/-- The contents of one reference after a line of host operations: every operation's result at its own reference is
    rewritten to its function of the operands' contents, and at any other reference to what was there, the operands of
    a two-operand and of a five-operand operation kept as plain arguments (ap2, ap5) and rewritten in their turn. -/
macro "after_results_simp_ap" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Cert.LibHostCat.binary_result_ap,
      Idealize.ShloMosaic.StableHlo.ternary_result', Idealize.ShloMosaic.StableHlo.quaternary_result', Idealize.ShloMosaic.StableHlo.reshape_result',
      Cert.LibHostCat.nary5_result_ap,
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne']))

end
-- ==== Proof.Batch.lean ====
/-
  Batches of a rank-three array. Every array of the reference carries a leading batch axis of extent 32; the kernel
  works on one batch per grid point. (bat b v) is batch b of v, the matrix of its last two axes. The lemmas here
  say that the layout operations of the reference commute with taking a batch: a concatenation along the last axis
  is the concatenation of the batches, a slice of the last axis is the slice of the batch, a bias row broadcast
  over batch and row is the same row broadcast over the rows, and one slab of the support tensor, reshaped, is the
  slab's batch read directly off the rank-four tensor.
-/
import Idealize.ShloMosaic.Lib.Pipeline.Value
import Idealize.ShloMosaic.Lib.ValueIdx
import Idealize.ShloMosaic.Lib.ValueLayout

noncomputable section

namespace Cert.DCGRU

open Idealize.ShloMosaic Idealize.ShloMosaic.ValueIdx

variable {α : Type}

/-- Batch b of a rank-three array: the matrix (n, c) ↦ v (b, n, c). -/
def bat {B M N : ℕ} (b : Fin B) (v : (⟨3, ![B, M, N]⟩ : Shape).Idx → α) : (⟨2, ![M, N]⟩ : Shape).Idx → α :=
  fun j => v (ix3 b (j 0) (j 1))

theorem bat_apply {B M N : ℕ} (b : Fin B) (v : (⟨3, ![B, M, N]⟩ : Shape).Idx → α) (n : Fin M) (c : Fin N) :
    bat b v (ix2 n c) = v (ix3 b n c) := rfl

/-- Slab s of batch b of a rank-four array: the matrix (n, k) ↦ A (b, s, n, k). -/
def slab {B S M N : ℕ} (b : Fin B) (s : Fin S) (A : (⟨4, ![B, S, M, N]⟩ : Shape).Idx → α) :
    (⟨2, ![M, N]⟩ : Shape).Idx → α :=
  fun j => A (ix4 b s (j 0) (j 1))

/-- A vector laid along the last axis of a matrix, the same on every row: (n, o) ↦ r o. -/
def rowOf (M : ℕ) {N : ℕ} (r : (⟨1, ![N]⟩ : Shape).Idx → α) : (⟨2, ![M, N]⟩ : Shape).Idx → α :=
  fun j => r (ix1 (j 1))

/-! ## Concatenation along the last axis -/

/-- A 2-column and a 32-column matrix of 1024 rows lie side by side in a 34-column one. -/
theorem cat_2_32_ok : Shape.Concatenates [(⟨2, ![1024, 2]⟩ : Shape), ⟨2, ![1024, 32]⟩] ⟨2, ![1024, 34]⟩ 1 := by decide

/-- Batch b of [x | y] (2 and 32 columns) is [bat b x | bat b y]. -/
theorem bat_concat_2_32 (b : Fin 32)
    (x : (⟨3, ![32, 1024, 2]⟩ : Shape).Idx → α) (y : (⟨3, ![32, 1024, 32]⟩ : Shape).Idx → α)
    (h : Shape.Concatenates [⟨3, ![32, 1024, 2]⟩, ⟨3, ![32, 1024, 32]⟩] ⟨3, ![32, 1024, 34]⟩ 2) :
    bat b (concatenate ⟨3, ![32, 1024, 34]⟩ 2 [⟨⟨3, ![32, 1024, 2]⟩, x⟩, ⟨⟨3, ![32, 1024, 32]⟩, y⟩] h)
      = concatenate ⟨2, ![1024, 34]⟩ 1 [⟨⟨2, ![1024, 2]⟩, bat b x⟩, ⟨⟨2, ![1024, 32]⟩, bat b y⟩] cat_2_32_ok := by
  have h' := cat_2_32_ok
  funext j
  obtain ⟨n, c, rfl⟩ : ∃ (n : Fin 1024) (c : Fin 34), j = ix2 n c := ⟨j 0, j 1, eq_ix2 j⟩
  show concatenate ⟨3, ![32, 1024, 34]⟩ 2 [⟨⟨3, ![32, 1024, 2]⟩, x⟩, ⟨⟨3, ![32, 1024, 32]⟩, y⟩] h (ix3 b n c) = _
  by_cases hc : c.val < 2
  · refine (concatenate_pair_apply_left 2 x y h (ix3 b n c) rfl (ix3 b n ⟨c.val, hc⟩)
      (fun a => by match a with | ⟨0, _⟩ => rfl | ⟨1, _⟩ => rfl | ⟨2, _⟩ => rfl)).trans ?_
    exact (concatenate_pair_apply_left 1 (bat b x) (bat b y) h' (ix2 n c) rfl (ix2 n ⟨c.val, hc⟩)
      (fun a => by match a with | ⟨0, _⟩ => rfl | ⟨1, _⟩ => rfl)).symm
  · have hc' : c.val - 2 < 32 := by have := c.isLt; omega
    refine (concatenate_pair_apply_right 2 x y h (ix3 b n c) rfl rfl (ix3 b n ⟨c.val - 2, hc'⟩)
      (fun a ha => by
        match a with
        | ⟨0, _⟩ => rfl
        | ⟨1, _⟩ => rfl
        | ⟨2, _⟩ => exact absurd rfl ha)
      (by show c.val - 2 + 2 = c.val; omega)).trans ?_
    exact (concatenate_pair_apply_right 1 (bat b x) (bat b y) h' (ix2 n c) rfl rfl (ix2 n ⟨c.val - 2, hc'⟩)
      (fun a ha => by
        match a with
        | ⟨0, _⟩ => rfl
        | ⟨1, _⟩ => exact absurd rfl ha)
      (by show c.val - 2 + 2 = c.val; omega)).symm

/-- Five 34-column matrices of 1024 rows lie side by side in a 170-column one. -/
theorem cat_5x34_ok : Shape.Concatenates [(⟨2, ![1024, 34]⟩ : Shape), ⟨2, ![1024, 34]⟩, ⟨2, ![1024, 34]⟩, ⟨2, ![1024, 34]⟩, ⟨2, ![1024, 34]⟩]
    ⟨2, ![1024, 170]⟩ 1 := by decide

/-- Batch b of five 34-column pieces laid side by side is the batches laid side by side. -/
theorem bat_concat_5x34 (b : Fin 32)
    (u0 u1 u2 u3 u4 : (⟨3, ![32, 1024, 34]⟩ : Shape).Idx → α)
    (h : Shape.Concatenates [⟨3, ![32, 1024, 34]⟩, ⟨3, ![32, 1024, 34]⟩, ⟨3, ![32, 1024, 34]⟩, ⟨3, ![32, 1024, 34]⟩, ⟨3, ![32, 1024, 34]⟩]
      ⟨3, ![32, 1024, 170]⟩ 2) :
    bat b (concatenate ⟨3, ![32, 1024, 170]⟩ 2 [⟨⟨3, ![32, 1024, 34]⟩, u0⟩, ⟨⟨3, ![32, 1024, 34]⟩, u1⟩, ⟨⟨3, ![32, 1024, 34]⟩, u2⟩,
        ⟨⟨3, ![32, 1024, 34]⟩, u3⟩, ⟨⟨3, ![32, 1024, 34]⟩, u4⟩] h)
      = concatenate ⟨2, ![1024, 170]⟩ 1 [⟨⟨2, ![1024, 34]⟩, bat b u0⟩, ⟨⟨2, ![1024, 34]⟩, bat b u1⟩, ⟨⟨2, ![1024, 34]⟩, bat b u2⟩,
        ⟨⟨2, ![1024, 34]⟩, bat b u3⟩, ⟨⟨2, ![1024, 34]⟩, bat b u4⟩] cat_5x34_ok := by
  have h' := cat_5x34_ok
  funext j
  obtain ⟨n, c, rfl⟩ : ∃ (n : Fin 1024) (c : Fin 170), j = ix2 n c := ⟨j 0, j 1, eq_ix2 j⟩
  show concatenate ⟨3, ![32, 1024, 170]⟩ 2 [⟨⟨3, ![32, 1024, 34]⟩, u0⟩, ⟨⟨3, ![32, 1024, 34]⟩, u1⟩, ⟨⟨3, ![32, 1024, 34]⟩, u2⟩,
        ⟨⟨3, ![32, 1024, 34]⟩, u3⟩, ⟨⟨3, ![32, 1024, 34]⟩, u4⟩] h (ix3 b n c) = _
  have hcl := c.isLt
  -- the piece that holds column c is piece c / 34, read at column c % 34
  have key : ∀ (k : ℕ) (hk : k < 5) (u : (⟨3, ![32, 1024, 34]⟩ : Shape).Idx → α)
      (hu : ([⟨⟨3, ![32, 1024, 34]⟩, u0⟩, ⟨⟨3, ![32, 1024, 34]⟩, u1⟩, ⟨⟨3, ![32, 1024, 34]⟩, u2⟩,
        ⟨⟨3, ![32, 1024, 34]⟩, u3⟩, ⟨⟨3, ![32, 1024, 34]⟩, u4⟩] : List ((s : Shape) × (s.Idx → α)))[k]'(by simpa using hk) = ⟨⟨3, ![32, 1024, 34]⟩, u⟩)
      (hu' : ([⟨⟨2, ![1024, 34]⟩, bat b u0⟩, ⟨⟨2, ![1024, 34]⟩, bat b u1⟩, ⟨⟨2, ![1024, 34]⟩, bat b u2⟩,
        ⟨⟨2, ![1024, 34]⟩, bat b u3⟩, ⟨⟨2, ![1024, 34]⟩, bat b u4⟩] : List ((s : Shape) × (s.Idx → α)))[k]'(by simpa using hk) = ⟨⟨2, ![1024, 34]⟩, bat b u⟩)
      (hlo : 34 * k ≤ c.val) (hhi : c.val < 34 * k + 34),
      concatenate ⟨3, ![32, 1024, 170]⟩ 2 [⟨⟨3, ![32, 1024, 34]⟩, u0⟩, ⟨⟨3, ![32, 1024, 34]⟩, u1⟩, ⟨⟨3, ![32, 1024, 34]⟩, u2⟩,
        ⟨⟨3, ![32, 1024, 34]⟩, u3⟩, ⟨⟨3, ![32, 1024, 34]⟩, u4⟩] h (ix3 b n c)
      = concatenate ⟨2, ![1024, 170]⟩ 1 [⟨⟨2, ![1024, 34]⟩, bat b u0⟩, ⟨⟨2, ![1024, 34]⟩, bat b u1⟩, ⟨⟨2, ![1024, 34]⟩, bat b u2⟩,
        ⟨⟨2, ![1024, 34]⟩, bat b u3⟩, ⟨⟨2, ![1024, 34]⟩, bat b u4⟩] h' (ix2 n c) := by
    intro k hk u hu hu' hlo hhi
    have hc' : c.val - 34 * k < 34 := by omega
    refine (concatenate_apply_piece 2 [⟨⟨3, ![32, 1024, 34]⟩, u0⟩, ⟨⟨3, ![32, 1024, 34]⟩, u1⟩, ⟨⟨3, ![32, 1024, 34]⟩, u2⟩,
        ⟨⟨3, ![32, 1024, 34]⟩, u3⟩, ⟨⟨3, ![32, 1024, 34]⟩, u4⟩] h (ix3 b n c) k (by simpa using hk) ⟨3, ![32, 1024, 34]⟩ u hu rfl (34 * k) ?_
      (ix3 b n ⟨c.val - 34 * k, hc'⟩)
      (fun a ha => by
        match a with
        | ⟨0, _⟩ => rfl
        | ⟨1, _⟩ => rfl
        | ⟨2, _⟩ => exact absurd rfl ha)
      (by show 34 * k + (c.val - 34 * k) = c.val; omega)).trans ?_
    · interval_cases k <;> rfl
    refine (concatenate_apply_piece 1 [⟨⟨2, ![1024, 34]⟩, bat b u0⟩, ⟨⟨2, ![1024, 34]⟩, bat b u1⟩, ⟨⟨2, ![1024, 34]⟩, bat b u2⟩,
        ⟨⟨2, ![1024, 34]⟩, bat b u3⟩, ⟨⟨2, ![1024, 34]⟩, bat b u4⟩] h' (ix2 n c) k (by simpa using hk) ⟨2, ![1024, 34]⟩ (bat b u) hu' rfl (34 * k) ?_
      (ix2 n ⟨c.val - 34 * k, hc'⟩)
      (fun a ha => by
        match a with
        | ⟨0, _⟩ => rfl
        | ⟨1, _⟩ => exact absurd rfl ha)
      (by show 34 * k + (c.val - 34 * k) = c.val; omega)).symm
    interval_cases k <;> rfl
  rcases (show c.val / 34 = 0 ∨ c.val / 34 = 1 ∨ c.val / 34 = 2 ∨ c.val / 34 = 3 ∨ c.val / 34 = 4 by omega) with e | e | e | e | e
  · exact key 0 (by omega) u0 rfl rfl (by omega) (by omega)
  · exact key 1 (by omega) u1 rfl rfl (by omega) (by omega)
  · exact key 2 (by omega) u2 rfl rfl (by omega) (by omega)
  · exact key 3 (by omega) u3 rfl rfl (by omega) (by omega)
  · exact key 4 (by omega) u4 rfl rfl (by omega) (by omega)

/-! ## A slice of the last axis -/

/-- If the columns o .. o + 31 can be cut out of the batched array they can be cut out of a batch. -/
theorem slice_ok (o : ℕ) (h : (⟨3, ![32, 1024, 64]⟩ : Shape).Slices ![0, 0, o] ⟨3, ![32, 1024, 32]⟩) :
    (⟨2, ![1024, 64]⟩ : Shape).Slices ![0, o] ⟨2, ![1024, 32]⟩ :=
  ⟨rfl, fun a => by
    match a with
    | ⟨0, _⟩ => exact Nat.le_refl 1024
    | ⟨1, _⟩ => exact h.2 2⟩

/-- Batch b of the columns o .. o + 31 of a 64-column array is those columns of the batch. -/
theorem bat_slice_64_32 (b : Fin 32) (o : ℕ) (x : (⟨3, ![32, 1024, 64]⟩ : Shape).Idx → α)
    (h : (⟨3, ![32, 1024, 64]⟩ : Shape).Slices ![0, 0, o] ⟨3, ![32, 1024, 32]⟩) :
    bat b (extractStridedSlice ⟨3, ![32, 1024, 32]⟩ ![0, 0, o] x h)
      = extractStridedSlice ⟨2, ![1024, 32]⟩ ![0, o] (bat b x) (slice_ok o h) := by
  have h' := slice_ok o h
  funext j
  obtain ⟨n, c, rfl⟩ : ∃ (n : Fin 1024) (c : Fin 32), j = ix2 n c := ⟨j 0, j 1, eq_ix2 j⟩
  have ho : o + 32 ≤ 64 := h'.2 1
  have hc : o + c.val < 64 := by have := c.isLt; omega
  show extractStridedSlice ⟨3, ![32, 1024, 32]⟩ ![0, 0, o] x h (ix3 b n c) = _
  refine (extractStridedSlice_apply ![0, 0, o] x h (ix3 b n c) (ix3 b n ⟨o + c.val, hc⟩) (fun a => by
    match a with
    | ⟨0, _⟩ => show b.val = 0 + b.val; omega
    | ⟨1, _⟩ => show n.val = 0 + n.val; omega
    | ⟨2, _⟩ => rfl)).trans ?_
  exact (extractStridedSlice_apply ![0, o] (bat b x) h' (ix2 n c) (ix2 n ⟨o + c.val, hc⟩) (fun a => by
    match a with
    | ⟨0, _⟩ => show n.val = 0 + n.val; omega
    | ⟨1, _⟩ => rfl)).symm

/-! ## A bias row -/

/-- The host's way to add a bias: the vector as a [1, 1, N] array, broadcast over batch and row. Its batch b is
    the vector laid along every row. -/
theorem bat_bias {N : ℕ} (b : Fin 32) (r : (⟨1, ![N]⟩ : Shape).Idx → α)
    (h1 : (⟨1, ![N]⟩ : Shape).BroadcastsInDim ⟨3, ![1, 1, N]⟩ ![2])
    (h2 : (⟨3, ![1, 1, N]⟩ : Shape).BroadcastsInDim ⟨3, ![32, 1024, N]⟩ ![0, 1, 2]) :
    bat b (broadcastInDim ⟨3, ![32, 1024, N]⟩ ![0, 1, 2] h2 (broadcastInDim ⟨3, ![1, 1, N]⟩ ![2] h1 r))
      = rowOf 1024 r := by
  funext j
  obtain ⟨n, o, rfl⟩ : ∃ (n : Fin 1024) (o : Fin N), j = ix2 n o := ⟨j 0, j 1, eq_ix2 j⟩
  show broadcastInDim ⟨3, ![32, 1024, N]⟩ ![0, 1, 2] h2 (broadcastInDim ⟨3, ![1, 1, N]⟩ ![2] h1 r) (ix3 b n o) = r (ix1 o)
  refine (broadcastInDim_apply ![0, 1, 2] h2 _ (ix3 b n o) (ix3 (0 : Fin 1) (0 : Fin 1) o) (fun a => by
    match a with
    | ⟨0, _⟩ => rfl
    | ⟨1, _⟩ => rfl
    | ⟨2, _⟩ =>
      show o.val = if N = 1 then 0 else o.val
      split
      · have := o.isLt; omega
      · rfl)).trans ?_
  exact broadcastInDim_apply ![2] h1 r (ix3 (0 : Fin 1) (0 : Fin 1) o) (ix1 o) (fun a => by
    match a with
    | ⟨0, _⟩ =>
      show o.val = if N = 1 then 0 else o.val
      split
      · have := o.isLt; omega
      · rfl)

/-- The kernel's way: the vector as a [1, N] array (a reshape outside the kernel, then the load's own cast),
    broadcast over the rows. It is the vector laid along every row. -/
theorem row_bias {N : ℕ} (r : (⟨1, ![N]⟩ : Shape).Idx → α)
    (hr : (⟨1, ![N]⟩ : Shape).ShapeCasts ⟨2, ![1, N]⟩) (hs : (⟨2, ![1, N]⟩ : Shape).ShapeCasts ⟨2, ![1, N]⟩)
    (hb : (⟨2, ![1, N]⟩ : Shape).Broadcasts ⟨2, ![1024, N]⟩) :
    broadcastTo ⟨2, ![1024, N]⟩ (shapeCast ⟨2, ![1, N]⟩ (shapeCast ⟨2, ![1, N]⟩ r hr) hs) hb = rowOf 1024 r := by
  funext j
  obtain ⟨n, o, rfl⟩ : ∃ (n : Fin 1024) (o : Fin N), j = ix2 n o := ⟨j 0, j 1, eq_ix2 j⟩
  rw [shapeCast_self]
  exact (broadcastTo_1b_ab_apply _ hb n o).trans (shapeCast_a_1a_apply r hr 0 o)

/-! ## One slab of the support tensor -/

/-- The host takes slab s of the support tensor by a slice that keeps a unit axis and a reshape that drops it;
    batch b of the result is the matrix A (b, s, ·, ·). -/
theorem bat_slab (b : Fin 32) (s : ℕ) (A : (⟨4, ![32, 2, 1024, 1024]⟩ : Shape).Idx → α)
    (h : (⟨4, ![32, 2, 1024, 1024]⟩ : Shape).Slices ![0, s, 0, 0] ⟨4, ![32, 1, 1024, 1024]⟩)
    (hc : (⟨4, ![32, 1, 1024, 1024]⟩ : Shape).ShapeCasts ⟨3, ![32, 1024, 1024]⟩) :
    bat b (shapeCast ⟨3, ![32, 1024, 1024]⟩ (extractStridedSlice ⟨4, ![32, 1, 1024, 1024]⟩ ![0, s, 0, 0] A h) hc)
      = slab b ⟨s, show s < 2 from h.2 1⟩ A := by
  funext j
  obtain ⟨n, k, rfl⟩ : ∃ (n : Fin 1024) (k : Fin 1024), j = ix2 n k := ⟨j 0, j 1, eq_ix2 j⟩
  have hs : s < 2 := h.2 1
  show shapeCast ⟨3, ![32, 1024, 1024]⟩ (extractStridedSlice ⟨4, ![32, 1, 1024, 1024]⟩ ![0, s, 0, 0] A h) hc (ix3 b n k)
    = A (ix4 b (⟨s, hs⟩ : Fin 2) n k)
  refine (shapeCast_apply _ hc (ix3 b n k) (ix4 b (0 : Fin 1) n k) (by
    rw [Shape.rowMajor_val_four, Shape.rowMajor_val_three]
    show ((b.val * 1 + 0) * 1024 + n.val) * 1024 + k.val = (b.val * 1024 + n.val) * 1024 + k.val
    omega)).trans ?_
  exact extractStridedSlice_apply ![0, s, 0, 0] A h (ix4 b (0 : Fin 1) n k) (ix4 b (⟨s, hs⟩ : Fin 2) n k) (fun a => by
    match a with
    | ⟨0, _⟩ => show b.val = 0 + b.val; omega
    | ⟨1, _⟩ => show s = s + 0; omega
    | ⟨2, _⟩ => show n.val = 0 + n.val; omega
    | ⟨3, _⟩ => show k.val = 0 + k.val; omega)

end Cert.DCGRU

end
-- ==== Proof.Blocks.lean ====
/-
  What the kernel body loads at grid point t, in terms of the whole arrays. The grid has one point per batch; the
  block of a batched array at point t is its batch t (block index t on the leading axis, the other axes whole), and
  the block of a weight or bias array is the whole array at every point. So: the input block, its unit axis dropped,
  is batch t of the inputs; the same for the states; each of the two loads from the supports block, its two unit
  axes dropped, is one slab of batch t; the weight blocks are the weights; and a bias block is the bias vector as a
  one-row matrix, which is what the host's reshape before the call made of it.
-/
import proofs.«139025_j3676492005530_1_alg».proof.Proof.Gen.KernelIdeal.Frame
import proofs.«139025_j3676492005530_1_alg».proof.Proof.Batch
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.DCGRU

variable (m : (ℓ : Loc nD τ sig) → Buf (Elt Ideal) ℓ)

/-- The batch a grid point works on. -/
abbrev batchOf (t : Fin cfg0.N) : Fin 32 := Fin.cast N_0 t

/-- The index maps over the grid: a batched array's block index is (t, 0, …, 0), an unbatched one's is all zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-- The inputs block, its unit axis dropped, is batch t of the inputs. -/
theorem inputs_blk (c : Dev nD) (t : Fin cfg0.N) :
    shapeCast S1024x2 (View.ld (iblk m c 0 t) r0_0) shapeCasts_S1x1024x2_S1024x2 = bat (batchOf t) (V m c main_arg0) := by
  funext j
  obtain ⟨n, q, rfl⟩ : ∃ (n : Fin 1024) (q : Fin 2), j = ix2 n q := ⟨j 0, j 1, eq_ix2 j⟩
  refine (shapeCast_1ab_ab_apply _ _ n q).trans ?_
  show V m c main_arg0 (((cfg0.win 0).blk t).view.emb (r0_0.idx (ix3 (0 : Fin 1) n q))) = V m c main_arg0 (ix3 (batchOf t) n q)
  obtain ⟨⟨e0, e1, e2⟩, -⟩ := idx_facts t
  refine congrArg _ (funext fun a => Fin.ext ?_)
  match a with
  | ⟨0, _⟩ => show win0_0.index t (0 : Fin 3) * 1 + 1 * (0 + 1 * 0) = t.val; omega
  | ⟨1, _⟩ => show win0_0.index t (1 : Fin 3) * 1024 + 1 * (0 + 1 * n.val) = n.val; omega
  | ⟨2, _⟩ => show win0_0.index t (2 : Fin 3) * 2 + 1 * (0 + 1 * q.val) = q.val; omega

/-- The states block, its unit axis dropped, is batch t of the states. -/
theorem states_blk (c : Dev nD) (t : Fin cfg0.N) :
    shapeCast S1024x32 (View.ld (iblk m c 2 t) r0_1) shapeCasts_S1x1024x32_S1024x32 = bat (batchOf t) (V m c main_arg2) := by
  funext j
  obtain ⟨n, q, rfl⟩ : ∃ (n : Fin 1024) (q : Fin 32), j = ix2 n q := ⟨j 0, j 1, eq_ix2 j⟩
  refine (shapeCast_1ab_ab_apply _ _ n q).trans ?_
  show V m c main_arg2 (((cfg0.win 2).blk t).view.emb (r0_1.idx (ix3 (0 : Fin 1) n q))) = V m c main_arg2 (ix3 (batchOf t) n q)
  obtain ⟨-, -, ⟨e0, e1, e2⟩, -⟩ := idx_facts t
  refine congrArg _ (funext fun a => Fin.ext ?_)
  match a with
  | ⟨0, _⟩ => show win0_2.index t (0 : Fin 3) * 1 + 1 * (0 + 1 * 0) = t.val; omega
  | ⟨1, _⟩ => show win0_2.index t (1 : Fin 3) * 1024 + 1 * (0 + 1 * n.val) = n.val; omega
  | ⟨2, _⟩ => show win0_2.index t (2 : Fin 3) * 32 + 1 * (0 + 1 * q.val) = q.val; omega

/-- The first load from the supports block, its two unit axes dropped, is slab 0 of batch t. -/
theorem supports_blk0 (c : Dev nD) (t : Fin cfg0.N) :
    shapeCast S1024x1024 (View.ld (iblk m c 1 t) r0_6) shapeCasts_S1x1x1024x1024_S1024x1024
      = slab (batchOf t) (0 : Fin 2) (V m c main_arg1) := by
  funext j
  obtain ⟨n, k, rfl⟩ : ∃ (n : Fin 1024) (k : Fin 1024), j = ix2 n k := ⟨j 0, j 1, eq_ix2 j⟩
  refine (shapeCast_apply _ _ (ix2 n k) (ix4 (0 : Fin 1) (0 : Fin 1) n k) (by
    rw [Shape.rowMajor_val_four, Shape.rowMajor_val_two]
    show ((0 * 1 + 0) * 1024 + n.val) * 1024 + k.val = n.val * 1024 + k.val
    omega)).trans ?_
  show V m c main_arg1 (((cfg0.win 1).blk t).view.emb (r0_6.idx (ix4 (0 : Fin 1) (0 : Fin 1) n k)))
    = V m c main_arg1 (ix4 (batchOf t) (0 : Fin 2) n k)
  obtain ⟨-, ⟨e0, e1, e2, e3⟩, -⟩ := idx_facts t
  refine congrArg _ (funext fun a => Fin.ext ?_)
  match a with
  | ⟨0, _⟩ => show win0_1.index t (0 : Fin 4) * 1 + 1 * (0 + 1 * 0) = t.val; omega
  | ⟨1, _⟩ => show win0_1.index t (1 : Fin 4) * 2 + 1 * (0 + 1 * 0) = 0; omega
  | ⟨2, _⟩ => show win0_1.index t (2 : Fin 4) * 1024 + 1 * (0 + 1 * n.val) = n.val; omega
  | ⟨3, _⟩ => show win0_1.index t (3 : Fin 4) * 1024 + 1 * (0 + 1 * k.val) = k.val; omega

/-- The second load from the supports block is slab 1 of batch t. -/
theorem supports_blk1 (c : Dev nD) (t : Fin cfg0.N) :
    shapeCast S1024x1024 (View.ld (iblk m c 1 t) r0_7) shapeCasts_S1x1x1024x1024_S1024x1024
      = slab (batchOf t) (1 : Fin 2) (V m c main_arg1) := by
  funext j
  obtain ⟨n, k, rfl⟩ : ∃ (n : Fin 1024) (k : Fin 1024), j = ix2 n k := ⟨j 0, j 1, eq_ix2 j⟩
  refine (shapeCast_apply _ _ (ix2 n k) (ix4 (0 : Fin 1) (0 : Fin 1) n k) (by
    rw [Shape.rowMajor_val_four, Shape.rowMajor_val_two]
    show ((0 * 1 + 0) * 1024 + n.val) * 1024 + k.val = n.val * 1024 + k.val
    omega)).trans ?_
  show V m c main_arg1 (((cfg0.win 1).blk t).view.emb (r0_7.idx (ix4 (0 : Fin 1) (0 : Fin 1) n k)))
    = V m c main_arg1 (ix4 (batchOf t) (1 : Fin 2) n k)
  obtain ⟨-, ⟨e0, e1, e2, e3⟩, -⟩ := idx_facts t
  refine congrArg _ (funext fun a => Fin.ext ?_)
  match a with
  | ⟨0, _⟩ => show win0_1.index t (0 : Fin 4) * 1 + 1 * (0 + 1 * 0) = t.val; omega
  | ⟨1, _⟩ => show win0_1.index t (1 : Fin 4) * 2 + 1 * (1 + 1 * 0) = 1; omega
  | ⟨2, _⟩ => show win0_1.index t (2 : Fin 4) * 1024 + 1 * (0 + 1 * n.val) = n.val; omega
  | ⟨3, _⟩ => show win0_1.index t (3 : Fin 4) * 1024 + 1 * (0 + 1 * k.val) = k.val; omega

/-- The gate weights' block is the whole weight matrix. -/
theorem wru_blk (c : Dev nD) (t : Fin cfg0.N) : View.ld (iblk m c 3 t) r0_2 = V m c main_arg3 := by
  funext j
  obtain ⟨f, o, rfl⟩ : ∃ (f : Fin 170) (o : Fin 64), j = ix2 f o := ⟨j 0, j 1, eq_ix2 j⟩
  show V m c main_arg3 (((cfg0.win 3).blk t).view.emb (r0_2.idx (ix2 f o))) = V m c main_arg3 (ix2 f o)
  obtain ⟨-, -, -, ⟨e0, e1⟩, -⟩ := idx_facts t
  refine congrArg _ (funext fun a => Fin.ext ?_)
  match a with
  | ⟨0, _⟩ => show win0_3.index t (0 : Fin 2) * 170 + 1 * (0 + 1 * f.val) = f.val; omega
  | ⟨1, _⟩ => show win0_3.index t (1 : Fin 2) * 64 + 1 * (0 + 1 * o.val) = o.val; omega

/-- The candidate weights' block is the whole weight matrix. -/
theorem wc_blk (c : Dev nD) (t : Fin cfg0.N) : View.ld (iblk m c 5 t) r0_4 = V m c main_arg5 := by
  funext j
  obtain ⟨f, o, rfl⟩ : ∃ (f : Fin 170) (o : Fin 32), j = ix2 f o := ⟨j 0, j 1, eq_ix2 j⟩
  show V m c main_arg5 (((cfg0.win 5).blk t).view.emb (r0_4.idx (ix2 f o))) = V m c main_arg5 (ix2 f o)
  obtain ⟨-, -, -, -, -, ⟨e0, e1⟩, -⟩ := idx_facts t
  refine congrArg _ (funext fun a => Fin.ext ?_)
  match a with
  | ⟨0, _⟩ => show win0_5.index t (0 : Fin 2) * 170 + 1 * (0 + 1 * f.val) = f.val; omega
  | ⟨1, _⟩ => show win0_5.index t (1 : Fin 2) * 32 + 1 * (0 + 1 * o.val) = o.val; omega

/-- The gate bias's block is the one-row matrix the host made of the bias before the call. -/
theorem bru_blk (c : Dev nD) (t : Fin cfg0.N) : View.ld (iblk m c 4 t) r0_3 = V m c main_v0 := by
  funext j
  obtain ⟨u, o, rfl⟩ : ∃ (u : Fin 1) (o : Fin 64), j = ix2 u o := ⟨j 0, j 1, eq_ix2 j⟩
  show V m c main_v0 (((cfg0.win 4).blk t).view.emb (r0_3.idx (ix2 u o))) = V m c main_v0 (ix2 u o)
  obtain ⟨-, -, -, -, ⟨e0, e1⟩, -⟩ := idx_facts t
  refine congrArg _ (funext fun a => Fin.ext ?_)
  match a with
  | ⟨0, _⟩ => show win0_4.index t (0 : Fin 2) * 1 + 1 * (0 + 1 * u.val) = u.val; omega
  | ⟨1, _⟩ => show win0_4.index t (1 : Fin 2) * 64 + 1 * (0 + 1 * o.val) = o.val; omega

/-- The candidate bias's block, likewise. -/
theorem bc_blk (c : Dev nD) (t : Fin cfg0.N) : View.ld (iblk m c 6 t) r0_5 = V m c main_v1 := by
  funext j
  obtain ⟨u, o, rfl⟩ : ∃ (u : Fin 1) (o : Fin 32), j = ix2 u o := ⟨j 0, j 1, eq_ix2 j⟩
  show V m c main_v1 (((cfg0.win 6).blk t).view.emb (r0_5.idx (ix2 u o))) = V m c main_v1 (ix2 u o)
  obtain ⟨-, -, -, -, -, -, ⟨e0, e1⟩, -⟩ := idx_facts t
  refine congrArg _ (funext fun a => Fin.ext ?_)
  match a with
  | ⟨0, _⟩ => show win0_6.index t (0 : Fin 2) * 1 + 1 * (0 + 1 * u.val) = u.val; omega
  | ⟨1, _⟩ => show win0_6.index t (1 : Fin 2) * 32 + 1 * (0 + 1 * o.val) = o.val; omega

/-- Before the call the host reshapes the gate bias [64] to [1, 64]. -/
theorem bru_host (c : Dev nD) :
    (V m c main_v0 : S1x64.Idx → EReal) = shapeCast S1x64 (m ((c : Thread nD τ).loc main_arg4)) shapeCasts_S64_S1x64 := by
  dsimp only [V, hostOps0]; after_results; rfl

/-- and the candidate bias [32] to [1, 32]. -/
theorem bc_host (c : Dev nD) :
    (V m c main_v1 : S1x32.Idx → EReal) = shapeCast S1x32 (m ((c : Thread nD τ).loc main_arg6)) shapeCasts_S32_S1x32 := by
  dsimp only [V, hostOps0]; after_results; rfl

end Cert.KernelIdeal.Blocks

end
-- ==== Proof.Maps.lean ====
/-
  Taking a batch commutes with every operation that acts element by element, and the reference's spelling of the
  logistic function, 1 / (1 + exp (-x)) over broadcast constants, is at the extended reals the kernel's one
  logistic operation; likewise a scalar constant broadcast by the host is the kernel's splat of it.
-/
import proofs.«139025_j3676492005530_1_alg».proof.Proof.Batch
import Idealize.ShloMosaic.PureOps.Ideal.Laws

noncomputable section

namespace Cert.DCGRU

open Idealize.ShloMosaic Idealize.ShloMosaic.ValueIdx

variable {B M N : ℕ} (b : Fin B)

theorem bat_addf (x y : FVec Ideal ⟨3, ![B, M, N]⟩ .f32) : bat b (addf x y) = addf (bat b x) (bat b y) := rfl
theorem bat_subf (x y : FVec Ideal ⟨3, ![B, M, N]⟩ .f32) : bat b (subf x y) = subf (bat b x) (bat b y) := rfl
theorem bat_mulf (x y : FVec Ideal ⟨3, ![B, M, N]⟩ .f32) : bat b (mulf x y) = mulf (bat b x) (bat b y) := rfl

/-- The host's tanh and the kernel's are one function of an extended real. -/
theorem bat_tanh (x : FVec Ideal ⟨3, ![B, M, N]⟩ .f32) : bat b (Host.tanh x) = tanh (bat b x) := rfl

/-- A scalar constant broadcast by the host to a whole array: every batch is the kernel's splat of the constant. -/
theorem bat_splat (w : BitVec 32) (h : (⟨0, ![]⟩ : Shape).BroadcastsInDim ⟨3, ![B, M, N]⟩ ![]) :
    bat b (broadcastInDim ⟨3, ![B, M, N]⟩ ![] h (constant (F := Ideal) ⟨0, ![]⟩ .f32 w))
      = broadcast ⟨2, ![M, N]⟩ (Scalar.ofBits (F := Ideal) .f32 w) := by
  funext j
  exact broadcastInDim_apply ![] h _ _ ix0 (fun a => a.elim0)

/-- The word 0x3F800000 is the real number one. -/
theorem one_f32 : Ideal.ofBits .f32 0x3F800000#32 = 1 := IdealRules.sign_bit.ideal_onePat .f32

/-- 1 / (1 + exp (-x)), as jax expands the logistic function on the host, is the logistic function. -/
theorem bat_logistic (x : FVec Ideal ⟨3, ![B, M, N]⟩ .f32) (h : (⟨0, ![]⟩ : Shape).BroadcastsInDim ⟨3, ![B, M, N]⟩ ![]) :
    bat b (Host.divf (broadcastInDim ⟨3, ![B, M, N]⟩ ![] h (constant (F := Ideal) ⟨0, ![]⟩ .f32 0x3F800000#32))
        (addf (broadcastInDim ⟨3, ![B, M, N]⟩ ![] h (constant (F := Ideal) ⟨0, ![]⟩ .f32 0x3F800000#32)) (Host.exp (Host.negf x))))
      = logistic (bat b x) := by
  funext j
  have hc : broadcastInDim ⟨3, ![B, M, N]⟩ ![] h (constant (F := Ideal) ⟨0, ![]⟩ .f32 0x3F800000#32) (ix3 b (j 0) (j 1)) = (1 : EReal) :=
    (broadcastInDim_apply ![] h _ _ ix0 (fun a => a.elim0)).trans one_f32
  show Ideal.div (broadcastInDim ⟨3, ![B, M, N]⟩ ![] h (constant (F := Ideal) ⟨0, ![]⟩ .f32 0x3F800000#32) (ix3 b (j 0) (j 1)))
      (broadcastInDim ⟨3, ![B, M, N]⟩ ![] h (constant (F := Ideal) ⟨0, ![]⟩ .f32 0x3F800000#32) (ix3 b (j 0) (j 1))
        + Ideal.exp (-(x (ix3 b (j 0) (j 1)))))
    = Ideal.logistic (x (ix3 b (j 0) (j 1)))
  rw [hc]
  rfl

end Cert.DCGRU

end
-- ==== Proof.Dots.lean ====
/-
  Matrix products. At the extended reals the kernel's matmul into a zero accumulator and the host's dot_general
  are both plain sums of products over the contracted axis. Read at an index: (A x)(n, c) = Σ_k A(n, k) x(k, c) for
  the kernel's two-dimensional product, and the same sum inside each batch for the host's batched product; a
  product with a weight matrix that carries no batch axis is, batch by batch, the kernel's product with that same
  matrix. So taking batch b of a host product gives the kernel's product of the batches.
  Each product is read in two steps: the operand indices of a product at an output index and a contraction position,
  axis by axis, then the sum re-indexed over the one contracted axis.
-/
import proofs.«139025_j3676492005530_1_alg».proof.Proof.Gen.KernelIdeal
import proofs.«139025_j3676492005530_1_alg».proof.Proof.Gen.ReferenceIdeal
import proofs.«139025_j3676492005530_1_alg».proof.Proof.Batch
import Idealize.ShloMosaic.PureOps.Ideal.Laws
import Idealize.ShloMosaic.Lib.ValueIdx

noncomputable section

namespace Cert.DCGRU

open Idealize.ShloMosaic Idealize.ShloMosaic.ValueIdx

/-! ## The kernel's products: [1024, K] times [K, N] -/

section KernelA
/-! A support matrix [1024, 1024] times features [1024, 34]. -/

theorem kA_lhs_0 (i : (⟨2, ![1024, 34]⟩ : Shape).Idx) (q : Cert.KernelIdeal.dot_S1024x1024_S1024x34_S1024x34_1_0_0_1_n_n.contr.Idx) :
    (Cert.KernelIdeal.dot_S1024x1024_S1024x34_S1024x34_1_0_0_1_n_n.lhsIdx i q 0).val = (i 0).val := by
  unfold DotDims.lhsIdx
  rw [dif_neg (show ¬(0 : Fin Cert.KernelIdeal.S1024x1024.rank) ∈ Cert.KernelIdeal.dot_S1024x1024_S1024x34_S1024x34_1_0_0_1_n_n.lhsBatch by decide), dif_pos (show (0 : Fin Cert.KernelIdeal.S1024x1024.rank) ∈ Cert.KernelIdeal.dot_S1024x1024_S1024x34_S1024x34_1_0_0_1_n_n.lhsNonContracting by decide)]
  rfl
theorem kA_lhs_1 (i : (⟨2, ![1024, 34]⟩ : Shape).Idx) (q : Cert.KernelIdeal.dot_S1024x1024_S1024x34_S1024x34_1_0_0_1_n_n.contr.Idx) :
    (Cert.KernelIdeal.dot_S1024x1024_S1024x34_S1024x34_1_0_0_1_n_n.lhsIdx i q 1).val = (q ⟨0, by decide⟩).val :=
  Cert.KernelIdeal.dot_S1024x1024_S1024x34_S1024x34_1_0_0_1_n_n.lhsIdx_val_of_single rfl i q
theorem kA_rhs_0 (i : (⟨2, ![1024, 34]⟩ : Shape).Idx) (q : Cert.KernelIdeal.dot_S1024x1024_S1024x34_S1024x34_1_0_0_1_n_n.contr.Idx) :
    (Cert.KernelIdeal.dot_S1024x1024_S1024x34_S1024x34_1_0_0_1_n_n.rhsIdx i q 0).val = (q ⟨0, by decide⟩).val :=
  Cert.KernelIdeal.dot_S1024x1024_S1024x34_S1024x34_1_0_0_1_n_n.rhsIdx_val_of_single rfl i q
theorem kA_rhs_1 (i : (⟨2, ![1024, 34]⟩ : Shape).Idx) (q : Cert.KernelIdeal.dot_S1024x1024_S1024x34_S1024x34_1_0_0_1_n_n.contr.Idx) :
    (Cert.KernelIdeal.dot_S1024x1024_S1024x34_S1024x34_1_0_0_1_n_n.rhsIdx i q 1).val = (i 1).val := by
  unfold DotDims.rhsIdx
  rw [dif_neg (show ¬(1 : Fin Cert.KernelIdeal.S1024x34.rank) ∈ Cert.KernelIdeal.dot_S1024x1024_S1024x34_S1024x34_1_0_0_1_n_n.rhsBatch by decide), dif_pos (show (1 : Fin Cert.KernelIdeal.S1024x34.rank) ∈ Cert.KernelIdeal.dot_S1024x1024_S1024x34_S1024x34_1_0_0_1_n_n.rhsNonContracting by decide)]
  rfl

/-- (A x)(n, c) = Σ_k A(n, k) · x(k, c). -/
theorem kA_apply (l : FVec Ideal ⟨2, ![1024, 1024]⟩ .f32) (r : FVec Ideal ⟨2, ![1024, 34]⟩ .f32) (n : Fin 1024) (c : Fin 34) :
    matmul Cert.KernelIdeal.dot_S1024x1024_S1024x34_S1024x34_1_0_0_1_n_n none l r (constant ⟨2, ![1024, 34]⟩ .f32 0x00000000#32) (ix2 n c)
      = ∑ k : Fin 1024, l (ix2 n k) * r (ix2 k c) := by
  simp only [matmul]
  rw [Ideal.matmul_constant_zero_apply, ← Equiv.sum_comp (contrEquiv1 Cert.KernelIdeal.dot_S1024x1024_S1024x34_S1024x34_1_0_0_1_n_n 1024 rfl rfl).symm]
  refine Finset.sum_congr rfl fun k _ => ?_
  have hk := contrEquiv1_symm_val Cert.KernelIdeal.dot_S1024x1024_S1024x34_S1024x34_1_0_0_1_n_n 1024 rfl rfl k
  have el : Cert.KernelIdeal.dot_S1024x1024_S1024x34_S1024x34_1_0_0_1_n_n.lhsIdx (ix2 n c) ((contrEquiv1 Cert.KernelIdeal.dot_S1024x1024_S1024x34_S1024x34_1_0_0_1_n_n 1024 rfl rfl).symm k) = ix2 n k := funext fun a => Fin.ext (by
    match a with
    | ⟨0, _⟩ => exact kA_lhs_0 _ _
    | ⟨1, _⟩ => exact (kA_lhs_1 _ _).trans hk)
  have er : Cert.KernelIdeal.dot_S1024x1024_S1024x34_S1024x34_1_0_0_1_n_n.rhsIdx (ix2 n c) ((contrEquiv1 Cert.KernelIdeal.dot_S1024x1024_S1024x34_S1024x34_1_0_0_1_n_n 1024 rfl rfl).symm k) = ix2 k c := funext fun a => Fin.ext (by
    match a with
    | ⟨0, _⟩ => exact (kA_rhs_0 _ _).trans hk
    | ⟨1, _⟩ => exact kA_rhs_1 _ _)
  rw [el, er]

end KernelA

section KernelW64
/-! The gathered features [1024, 170] times the gate weights [170, 64]. -/

theorem kW64_lhs_0 (i : (⟨2, ![1024, 64]⟩ : Shape).Idx) (q : Cert.KernelIdeal.dot_S1024x170_S170x64_S1024x64_1_0_0_1_n_n.contr.Idx) :
    (Cert.KernelIdeal.dot_S1024x170_S170x64_S1024x64_1_0_0_1_n_n.lhsIdx i q 0).val = (i 0).val := by
  unfold DotDims.lhsIdx
  rw [dif_neg (show ¬(0 : Fin Cert.KernelIdeal.S1024x170.rank) ∈ Cert.KernelIdeal.dot_S1024x170_S170x64_S1024x64_1_0_0_1_n_n.lhsBatch by decide), dif_pos (show (0 : Fin Cert.KernelIdeal.S1024x170.rank) ∈ Cert.KernelIdeal.dot_S1024x170_S170x64_S1024x64_1_0_0_1_n_n.lhsNonContracting by decide)]
  rfl
theorem kW64_lhs_1 (i : (⟨2, ![1024, 64]⟩ : Shape).Idx) (q : Cert.KernelIdeal.dot_S1024x170_S170x64_S1024x64_1_0_0_1_n_n.contr.Idx) :
    (Cert.KernelIdeal.dot_S1024x170_S170x64_S1024x64_1_0_0_1_n_n.lhsIdx i q 1).val = (q ⟨0, by decide⟩).val :=
  Cert.KernelIdeal.dot_S1024x170_S170x64_S1024x64_1_0_0_1_n_n.lhsIdx_val_of_single rfl i q
theorem kW64_rhs_0 (i : (⟨2, ![1024, 64]⟩ : Shape).Idx) (q : Cert.KernelIdeal.dot_S1024x170_S170x64_S1024x64_1_0_0_1_n_n.contr.Idx) :
    (Cert.KernelIdeal.dot_S1024x170_S170x64_S1024x64_1_0_0_1_n_n.rhsIdx i q 0).val = (q ⟨0, by decide⟩).val :=
  Cert.KernelIdeal.dot_S1024x170_S170x64_S1024x64_1_0_0_1_n_n.rhsIdx_val_of_single rfl i q
theorem kW64_rhs_1 (i : (⟨2, ![1024, 64]⟩ : Shape).Idx) (q : Cert.KernelIdeal.dot_S1024x170_S170x64_S1024x64_1_0_0_1_n_n.contr.Idx) :
    (Cert.KernelIdeal.dot_S1024x170_S170x64_S1024x64_1_0_0_1_n_n.rhsIdx i q 1).val = (i 1).val := by
  unfold DotDims.rhsIdx
  rw [dif_neg (show ¬(1 : Fin Cert.KernelIdeal.S170x64.rank) ∈ Cert.KernelIdeal.dot_S1024x170_S170x64_S1024x64_1_0_0_1_n_n.rhsBatch by decide), dif_pos (show (1 : Fin Cert.KernelIdeal.S170x64.rank) ∈ Cert.KernelIdeal.dot_S1024x170_S170x64_S1024x64_1_0_0_1_n_n.rhsNonContracting by decide)]
  rfl

/-- (h W)(n, o) = Σ_f h(n, f) · W(f, o), 64 output columns. -/
theorem kW64_apply (l : FVec Ideal ⟨2, ![1024, 170]⟩ .f32) (r : FVec Ideal ⟨2, ![170, 64]⟩ .f32) (n : Fin 1024) (o : Fin 64) :
    matmul Cert.KernelIdeal.dot_S1024x170_S170x64_S1024x64_1_0_0_1_n_n none l r (constant ⟨2, ![1024, 64]⟩ .f32 0x00000000#32) (ix2 n o)
      = ∑ k : Fin 170, l (ix2 n k) * r (ix2 k o) := by
  simp only [matmul]
  rw [Ideal.matmul_constant_zero_apply, ← Equiv.sum_comp (contrEquiv1 Cert.KernelIdeal.dot_S1024x170_S170x64_S1024x64_1_0_0_1_n_n 170 rfl rfl).symm]
  refine Finset.sum_congr rfl fun k _ => ?_
  have hk := contrEquiv1_symm_val Cert.KernelIdeal.dot_S1024x170_S170x64_S1024x64_1_0_0_1_n_n 170 rfl rfl k
  have el : Cert.KernelIdeal.dot_S1024x170_S170x64_S1024x64_1_0_0_1_n_n.lhsIdx (ix2 n o) ((contrEquiv1 Cert.KernelIdeal.dot_S1024x170_S170x64_S1024x64_1_0_0_1_n_n 170 rfl rfl).symm k) = ix2 n k := funext fun a => Fin.ext (by
    match a with
    | ⟨0, _⟩ => exact kW64_lhs_0 _ _
    | ⟨1, _⟩ => exact (kW64_lhs_1 _ _).trans hk)
  have er : Cert.KernelIdeal.dot_S1024x170_S170x64_S1024x64_1_0_0_1_n_n.rhsIdx (ix2 n o) ((contrEquiv1 Cert.KernelIdeal.dot_S1024x170_S170x64_S1024x64_1_0_0_1_n_n 170 rfl rfl).symm k) = ix2 k o := funext fun a => Fin.ext (by
    match a with
    | ⟨0, _⟩ => exact (kW64_rhs_0 _ _).trans hk
    | ⟨1, _⟩ => exact kW64_rhs_1 _ _)
  rw [el, er]

end KernelW64

section KernelW32
/-! The gathered features [1024, 170] times the candidate weights [170, 32]. -/

theorem kW32_lhs_0 (i : (⟨2, ![1024, 32]⟩ : Shape).Idx) (q : Cert.KernelIdeal.dot_S1024x170_S170x32_S1024x32_1_0_0_1_n_n.contr.Idx) :
    (Cert.KernelIdeal.dot_S1024x170_S170x32_S1024x32_1_0_0_1_n_n.lhsIdx i q 0).val = (i 0).val := by
  unfold DotDims.lhsIdx
  rw [dif_neg (show ¬(0 : Fin Cert.KernelIdeal.S1024x170.rank) ∈ Cert.KernelIdeal.dot_S1024x170_S170x32_S1024x32_1_0_0_1_n_n.lhsBatch by decide), dif_pos (show (0 : Fin Cert.KernelIdeal.S1024x170.rank) ∈ Cert.KernelIdeal.dot_S1024x170_S170x32_S1024x32_1_0_0_1_n_n.lhsNonContracting by decide)]
  rfl
theorem kW32_lhs_1 (i : (⟨2, ![1024, 32]⟩ : Shape).Idx) (q : Cert.KernelIdeal.dot_S1024x170_S170x32_S1024x32_1_0_0_1_n_n.contr.Idx) :
    (Cert.KernelIdeal.dot_S1024x170_S170x32_S1024x32_1_0_0_1_n_n.lhsIdx i q 1).val = (q ⟨0, by decide⟩).val :=
  Cert.KernelIdeal.dot_S1024x170_S170x32_S1024x32_1_0_0_1_n_n.lhsIdx_val_of_single rfl i q
theorem kW32_rhs_0 (i : (⟨2, ![1024, 32]⟩ : Shape).Idx) (q : Cert.KernelIdeal.dot_S1024x170_S170x32_S1024x32_1_0_0_1_n_n.contr.Idx) :
    (Cert.KernelIdeal.dot_S1024x170_S170x32_S1024x32_1_0_0_1_n_n.rhsIdx i q 0).val = (q ⟨0, by decide⟩).val :=
  Cert.KernelIdeal.dot_S1024x170_S170x32_S1024x32_1_0_0_1_n_n.rhsIdx_val_of_single rfl i q
theorem kW32_rhs_1 (i : (⟨2, ![1024, 32]⟩ : Shape).Idx) (q : Cert.KernelIdeal.dot_S1024x170_S170x32_S1024x32_1_0_0_1_n_n.contr.Idx) :
    (Cert.KernelIdeal.dot_S1024x170_S170x32_S1024x32_1_0_0_1_n_n.rhsIdx i q 1).val = (i 1).val := by
  unfold DotDims.rhsIdx
  rw [dif_neg (show ¬(1 : Fin Cert.KernelIdeal.S170x32.rank) ∈ Cert.KernelIdeal.dot_S1024x170_S170x32_S1024x32_1_0_0_1_n_n.rhsBatch by decide), dif_pos (show (1 : Fin Cert.KernelIdeal.S170x32.rank) ∈ Cert.KernelIdeal.dot_S1024x170_S170x32_S1024x32_1_0_0_1_n_n.rhsNonContracting by decide)]
  rfl

/-- (h W)(n, o) = Σ_f h(n, f) · W(f, o), 32 output columns. -/
theorem kW32_apply (l : FVec Ideal ⟨2, ![1024, 170]⟩ .f32) (r : FVec Ideal ⟨2, ![170, 32]⟩ .f32) (n : Fin 1024) (o : Fin 32) :
    matmul Cert.KernelIdeal.dot_S1024x170_S170x32_S1024x32_1_0_0_1_n_n none l r (constant ⟨2, ![1024, 32]⟩ .f32 0x00000000#32) (ix2 n o)
      = ∑ k : Fin 170, l (ix2 n k) * r (ix2 k o) := by
  simp only [matmul]
  rw [Ideal.matmul_constant_zero_apply, ← Equiv.sum_comp (contrEquiv1 Cert.KernelIdeal.dot_S1024x170_S170x32_S1024x32_1_0_0_1_n_n 170 rfl rfl).symm]
  refine Finset.sum_congr rfl fun k _ => ?_
  have hk := contrEquiv1_symm_val Cert.KernelIdeal.dot_S1024x170_S170x32_S1024x32_1_0_0_1_n_n 170 rfl rfl k
  have el : Cert.KernelIdeal.dot_S1024x170_S170x32_S1024x32_1_0_0_1_n_n.lhsIdx (ix2 n o) ((contrEquiv1 Cert.KernelIdeal.dot_S1024x170_S170x32_S1024x32_1_0_0_1_n_n 170 rfl rfl).symm k) = ix2 n k := funext fun a => Fin.ext (by
    match a with
    | ⟨0, _⟩ => exact kW32_lhs_0 _ _
    | ⟨1, _⟩ => exact (kW32_lhs_1 _ _).trans hk)
  have er : Cert.KernelIdeal.dot_S1024x170_S170x32_S1024x32_1_0_0_1_n_n.rhsIdx (ix2 n o) ((contrEquiv1 Cert.KernelIdeal.dot_S1024x170_S170x32_S1024x32_1_0_0_1_n_n 170 rfl rfl).symm k) = ix2 k o := funext fun a => Fin.ext (by
    match a with
    | ⟨0, _⟩ => exact (kW32_rhs_0 _ _).trans hk
    | ⟨1, _⟩ => exact kW32_rhs_1 _ _)
  rw [el, er]

end KernelW32

/-! ## The host's products -/

section RefA
/-! Batched: supports [32, 1024, 1024] times features [32, 1024, 34], batch axis 0 of both. -/

theorem rA_lhs_0 (i : (⟨3, ![32, 1024, 34]⟩ : Shape).Idx) (q : Cert.ReferenceIdeal.dot_S32x1024x1024_S32x1024x34_S32x1024x34_2_1_1_2_0_0.contr.Idx) :
    (Cert.ReferenceIdeal.dot_S32x1024x1024_S32x1024x34_S32x1024x34_2_1_1_2_0_0.lhsIdx i q 0).val = (i 0).val := by
  unfold DotDims.lhsIdx
  rw [dif_pos (show (0 : Fin Cert.ReferenceIdeal.S32x1024x1024.rank) ∈ Cert.ReferenceIdeal.dot_S32x1024x1024_S32x1024x34_S32x1024x34_2_1_1_2_0_0.lhsBatch by decide)]
  rfl
theorem rA_lhs_1 (i : (⟨3, ![32, 1024, 34]⟩ : Shape).Idx) (q : Cert.ReferenceIdeal.dot_S32x1024x1024_S32x1024x34_S32x1024x34_2_1_1_2_0_0.contr.Idx) :
    (Cert.ReferenceIdeal.dot_S32x1024x1024_S32x1024x34_S32x1024x34_2_1_1_2_0_0.lhsIdx i q 1).val = (i 1).val := by
  unfold DotDims.lhsIdx
  rw [dif_neg (show ¬(1 : Fin Cert.ReferenceIdeal.S32x1024x1024.rank) ∈ Cert.ReferenceIdeal.dot_S32x1024x1024_S32x1024x34_S32x1024x34_2_1_1_2_0_0.lhsBatch by decide), dif_pos (show (1 : Fin Cert.ReferenceIdeal.S32x1024x1024.rank) ∈ Cert.ReferenceIdeal.dot_S32x1024x1024_S32x1024x34_S32x1024x34_2_1_1_2_0_0.lhsNonContracting by decide)]
  rfl
theorem rA_lhs_2 (i : (⟨3, ![32, 1024, 34]⟩ : Shape).Idx) (q : Cert.ReferenceIdeal.dot_S32x1024x1024_S32x1024x34_S32x1024x34_2_1_1_2_0_0.contr.Idx) :
    (Cert.ReferenceIdeal.dot_S32x1024x1024_S32x1024x34_S32x1024x34_2_1_1_2_0_0.lhsIdx i q 2).val = (q ⟨0, by decide⟩).val :=
  Cert.ReferenceIdeal.dot_S32x1024x1024_S32x1024x34_S32x1024x34_2_1_1_2_0_0.lhsIdx_val_of_single rfl i q
theorem rA_rhs_0 (i : (⟨3, ![32, 1024, 34]⟩ : Shape).Idx) (q : Cert.ReferenceIdeal.dot_S32x1024x1024_S32x1024x34_S32x1024x34_2_1_1_2_0_0.contr.Idx) :
    (Cert.ReferenceIdeal.dot_S32x1024x1024_S32x1024x34_S32x1024x34_2_1_1_2_0_0.rhsIdx i q 0).val = (i 0).val := by
  unfold DotDims.rhsIdx
  rw [dif_pos (show (0 : Fin Cert.ReferenceIdeal.S32x1024x34.rank) ∈ Cert.ReferenceIdeal.dot_S32x1024x1024_S32x1024x34_S32x1024x34_2_1_1_2_0_0.rhsBatch by decide)]
  rfl
theorem rA_rhs_1 (i : (⟨3, ![32, 1024, 34]⟩ : Shape).Idx) (q : Cert.ReferenceIdeal.dot_S32x1024x1024_S32x1024x34_S32x1024x34_2_1_1_2_0_0.contr.Idx) :
    (Cert.ReferenceIdeal.dot_S32x1024x1024_S32x1024x34_S32x1024x34_2_1_1_2_0_0.rhsIdx i q 1).val = (q ⟨0, by decide⟩).val :=
  Cert.ReferenceIdeal.dot_S32x1024x1024_S32x1024x34_S32x1024x34_2_1_1_2_0_0.rhsIdx_val_of_single rfl i q
theorem rA_rhs_2 (i : (⟨3, ![32, 1024, 34]⟩ : Shape).Idx) (q : Cert.ReferenceIdeal.dot_S32x1024x1024_S32x1024x34_S32x1024x34_2_1_1_2_0_0.contr.Idx) :
    (Cert.ReferenceIdeal.dot_S32x1024x1024_S32x1024x34_S32x1024x34_2_1_1_2_0_0.rhsIdx i q 2).val = (i 2).val := by
  unfold DotDims.rhsIdx
  rw [dif_neg (show ¬(2 : Fin Cert.ReferenceIdeal.S32x1024x34.rank) ∈ Cert.ReferenceIdeal.dot_S32x1024x1024_S32x1024x34_S32x1024x34_2_1_1_2_0_0.rhsBatch by decide), dif_pos (show (2 : Fin Cert.ReferenceIdeal.S32x1024x34.rank) ∈ Cert.ReferenceIdeal.dot_S32x1024x1024_S32x1024x34_S32x1024x34_2_1_1_2_0_0.rhsNonContracting by decide)]
  rfl

/-- Inside batch b: (A x)(b, n, c) = Σ_k A(b, n, k) · x(b, k, c). -/
theorem rA_apply (l : FVec Ideal ⟨3, ![32, 1024, 1024]⟩ .f32) (r : FVec Ideal ⟨3, ![32, 1024, 34]⟩ .f32)
    (b : Fin 32) (n : Fin 1024) (c : Fin 34) :
    Host.dotGeneral Cert.ReferenceIdeal.dot_S32x1024x1024_S32x1024x34_S32x1024x34_2_1_1_2_0_0 none l r (ix3 b n c) = ∑ k : Fin 1024, l (ix3 b n k) * r (ix3 b k c) := by
  simp only [Host.dotGeneral]
  rw [Ideal.dotGeneral_apply, ← Equiv.sum_comp (contrEquiv1 Cert.ReferenceIdeal.dot_S32x1024x1024_S32x1024x34_S32x1024x34_2_1_1_2_0_0 1024 rfl rfl).symm]
  refine Finset.sum_congr rfl fun k _ => ?_
  have hk := contrEquiv1_symm_val Cert.ReferenceIdeal.dot_S32x1024x1024_S32x1024x34_S32x1024x34_2_1_1_2_0_0 1024 rfl rfl k
  have el : Cert.ReferenceIdeal.dot_S32x1024x1024_S32x1024x34_S32x1024x34_2_1_1_2_0_0.lhsIdx (ix3 b n c) ((contrEquiv1 Cert.ReferenceIdeal.dot_S32x1024x1024_S32x1024x34_S32x1024x34_2_1_1_2_0_0 1024 rfl rfl).symm k) = ix3 b n k := funext fun a => Fin.ext (by
    match a with
    | ⟨0, _⟩ => exact rA_lhs_0 _ _
    | ⟨1, _⟩ => exact rA_lhs_1 _ _
    | ⟨2, _⟩ => exact (rA_lhs_2 _ _).trans hk)
  have er : Cert.ReferenceIdeal.dot_S32x1024x1024_S32x1024x34_S32x1024x34_2_1_1_2_0_0.rhsIdx (ix3 b n c) ((contrEquiv1 Cert.ReferenceIdeal.dot_S32x1024x1024_S32x1024x34_S32x1024x34_2_1_1_2_0_0 1024 rfl rfl).symm k) = ix3 b k c := funext fun a => Fin.ext (by
    match a with
    | ⟨0, _⟩ => exact rA_rhs_0 _ _
    | ⟨1, _⟩ => exact (rA_rhs_1 _ _).trans hk
    | ⟨2, _⟩ => exact rA_rhs_2 _ _)
  rw [el, er]

end RefA

section RefW64
/-! Features [32, 1024, 170] times the gate weights [170, 64]: no batch axis on the weights. -/

theorem rW64_lhs_0 (i : (⟨3, ![32, 1024, 64]⟩ : Shape).Idx) (q : Cert.ReferenceIdeal.dot_S32x1024x170_S170x64_S32x1024x64_2_0_01_1_n_n.contr.Idx) :
    (Cert.ReferenceIdeal.dot_S32x1024x170_S170x64_S32x1024x64_2_0_01_1_n_n.lhsIdx i q 0).val = (i 0).val := by
  unfold DotDims.lhsIdx
  rw [dif_neg (show ¬(0 : Fin Cert.ReferenceIdeal.S32x1024x170.rank) ∈ Cert.ReferenceIdeal.dot_S32x1024x170_S170x64_S32x1024x64_2_0_01_1_n_n.lhsBatch by decide), dif_pos (show (0 : Fin Cert.ReferenceIdeal.S32x1024x170.rank) ∈ Cert.ReferenceIdeal.dot_S32x1024x170_S170x64_S32x1024x64_2_0_01_1_n_n.lhsNonContracting by decide)]
  rfl
theorem rW64_lhs_1 (i : (⟨3, ![32, 1024, 64]⟩ : Shape).Idx) (q : Cert.ReferenceIdeal.dot_S32x1024x170_S170x64_S32x1024x64_2_0_01_1_n_n.contr.Idx) :
    (Cert.ReferenceIdeal.dot_S32x1024x170_S170x64_S32x1024x64_2_0_01_1_n_n.lhsIdx i q 1).val = (i 1).val := by
  unfold DotDims.lhsIdx
  rw [dif_neg (show ¬(1 : Fin Cert.ReferenceIdeal.S32x1024x170.rank) ∈ Cert.ReferenceIdeal.dot_S32x1024x170_S170x64_S32x1024x64_2_0_01_1_n_n.lhsBatch by decide), dif_pos (show (1 : Fin Cert.ReferenceIdeal.S32x1024x170.rank) ∈ Cert.ReferenceIdeal.dot_S32x1024x170_S170x64_S32x1024x64_2_0_01_1_n_n.lhsNonContracting by decide)]
  rfl
theorem rW64_lhs_2 (i : (⟨3, ![32, 1024, 64]⟩ : Shape).Idx) (q : Cert.ReferenceIdeal.dot_S32x1024x170_S170x64_S32x1024x64_2_0_01_1_n_n.contr.Idx) :
    (Cert.ReferenceIdeal.dot_S32x1024x170_S170x64_S32x1024x64_2_0_01_1_n_n.lhsIdx i q 2).val = (q ⟨0, by decide⟩).val :=
  Cert.ReferenceIdeal.dot_S32x1024x170_S170x64_S32x1024x64_2_0_01_1_n_n.lhsIdx_val_of_single rfl i q
theorem rW64_rhs_0 (i : (⟨3, ![32, 1024, 64]⟩ : Shape).Idx) (q : Cert.ReferenceIdeal.dot_S32x1024x170_S170x64_S32x1024x64_2_0_01_1_n_n.contr.Idx) :
    (Cert.ReferenceIdeal.dot_S32x1024x170_S170x64_S32x1024x64_2_0_01_1_n_n.rhsIdx i q 0).val = (q ⟨0, by decide⟩).val :=
  Cert.ReferenceIdeal.dot_S32x1024x170_S170x64_S32x1024x64_2_0_01_1_n_n.rhsIdx_val_of_single rfl i q
theorem rW64_rhs_1 (i : (⟨3, ![32, 1024, 64]⟩ : Shape).Idx) (q : Cert.ReferenceIdeal.dot_S32x1024x170_S170x64_S32x1024x64_2_0_01_1_n_n.contr.Idx) :
    (Cert.ReferenceIdeal.dot_S32x1024x170_S170x64_S32x1024x64_2_0_01_1_n_n.rhsIdx i q 1).val = (i 2).val := by
  unfold DotDims.rhsIdx
  rw [dif_neg (show ¬(1 : Fin Cert.ReferenceIdeal.S170x64.rank) ∈ Cert.ReferenceIdeal.dot_S32x1024x170_S170x64_S32x1024x64_2_0_01_1_n_n.rhsBatch by decide), dif_pos (show (1 : Fin Cert.ReferenceIdeal.S170x64.rank) ∈ Cert.ReferenceIdeal.dot_S32x1024x170_S170x64_S32x1024x64_2_0_01_1_n_n.rhsNonContracting by decide)]
  rfl

/-- (h W)(b, n, o) = Σ_f h(b, n, f) · W(f, o). -/
theorem rW64_apply (l : FVec Ideal ⟨3, ![32, 1024, 170]⟩ .f32) (r : FVec Ideal ⟨2, ![170, 64]⟩ .f32)
    (b : Fin 32) (n : Fin 1024) (o : Fin 64) :
    Host.dotGeneral Cert.ReferenceIdeal.dot_S32x1024x170_S170x64_S32x1024x64_2_0_01_1_n_n none l r (ix3 b n o) = ∑ k : Fin 170, l (ix3 b n k) * r (ix2 k o) := by
  simp only [Host.dotGeneral]
  rw [Ideal.dotGeneral_apply, ← Equiv.sum_comp (contrEquiv1 Cert.ReferenceIdeal.dot_S32x1024x170_S170x64_S32x1024x64_2_0_01_1_n_n 170 rfl rfl).symm]
  refine Finset.sum_congr rfl fun k _ => ?_
  have hk := contrEquiv1_symm_val Cert.ReferenceIdeal.dot_S32x1024x170_S170x64_S32x1024x64_2_0_01_1_n_n 170 rfl rfl k
  have el : Cert.ReferenceIdeal.dot_S32x1024x170_S170x64_S32x1024x64_2_0_01_1_n_n.lhsIdx (ix3 b n o) ((contrEquiv1 Cert.ReferenceIdeal.dot_S32x1024x170_S170x64_S32x1024x64_2_0_01_1_n_n 170 rfl rfl).symm k) = ix3 b n k := funext fun a => Fin.ext (by
    match a with
    | ⟨0, _⟩ => exact rW64_lhs_0 _ _
    | ⟨1, _⟩ => exact rW64_lhs_1 _ _
    | ⟨2, _⟩ => exact (rW64_lhs_2 _ _).trans hk)
  have er : Cert.ReferenceIdeal.dot_S32x1024x170_S170x64_S32x1024x64_2_0_01_1_n_n.rhsIdx (ix3 b n o) ((contrEquiv1 Cert.ReferenceIdeal.dot_S32x1024x170_S170x64_S32x1024x64_2_0_01_1_n_n 170 rfl rfl).symm k) = ix2 k o := funext fun a => Fin.ext (by
    match a with
    | ⟨0, _⟩ => exact (rW64_rhs_0 _ _).trans hk
    | ⟨1, _⟩ => exact rW64_rhs_1 _ _)
  rw [el, er]

end RefW64

section RefW32
/-! Features [32, 1024, 170] times the candidate weights [170, 32]. -/

theorem rW32_lhs_0 (i : (⟨3, ![32, 1024, 32]⟩ : Shape).Idx) (q : Cert.ReferenceIdeal.dot_S32x1024x170_S170x32_S32x1024x32_2_0_01_1_n_n.contr.Idx) :
    (Cert.ReferenceIdeal.dot_S32x1024x170_S170x32_S32x1024x32_2_0_01_1_n_n.lhsIdx i q 0).val = (i 0).val := by
  unfold DotDims.lhsIdx
  rw [dif_neg (show ¬(0 : Fin Cert.ReferenceIdeal.S32x1024x170.rank) ∈ Cert.ReferenceIdeal.dot_S32x1024x170_S170x32_S32x1024x32_2_0_01_1_n_n.lhsBatch by decide), dif_pos (show (0 : Fin Cert.ReferenceIdeal.S32x1024x170.rank) ∈ Cert.ReferenceIdeal.dot_S32x1024x170_S170x32_S32x1024x32_2_0_01_1_n_n.lhsNonContracting by decide)]
  rfl
theorem rW32_lhs_1 (i : (⟨3, ![32, 1024, 32]⟩ : Shape).Idx) (q : Cert.ReferenceIdeal.dot_S32x1024x170_S170x32_S32x1024x32_2_0_01_1_n_n.contr.Idx) :
    (Cert.ReferenceIdeal.dot_S32x1024x170_S170x32_S32x1024x32_2_0_01_1_n_n.lhsIdx i q 1).val = (i 1).val := by
  unfold DotDims.lhsIdx
  rw [dif_neg (show ¬(1 : Fin Cert.ReferenceIdeal.S32x1024x170.rank) ∈ Cert.ReferenceIdeal.dot_S32x1024x170_S170x32_S32x1024x32_2_0_01_1_n_n.lhsBatch by decide), dif_pos (show (1 : Fin Cert.ReferenceIdeal.S32x1024x170.rank) ∈ Cert.ReferenceIdeal.dot_S32x1024x170_S170x32_S32x1024x32_2_0_01_1_n_n.lhsNonContracting by decide)]
  rfl
theorem rW32_lhs_2 (i : (⟨3, ![32, 1024, 32]⟩ : Shape).Idx) (q : Cert.ReferenceIdeal.dot_S32x1024x170_S170x32_S32x1024x32_2_0_01_1_n_n.contr.Idx) :
    (Cert.ReferenceIdeal.dot_S32x1024x170_S170x32_S32x1024x32_2_0_01_1_n_n.lhsIdx i q 2).val = (q ⟨0, by decide⟩).val :=
  Cert.ReferenceIdeal.dot_S32x1024x170_S170x32_S32x1024x32_2_0_01_1_n_n.lhsIdx_val_of_single rfl i q
theorem rW32_rhs_0 (i : (⟨3, ![32, 1024, 32]⟩ : Shape).Idx) (q : Cert.ReferenceIdeal.dot_S32x1024x170_S170x32_S32x1024x32_2_0_01_1_n_n.contr.Idx) :
    (Cert.ReferenceIdeal.dot_S32x1024x170_S170x32_S32x1024x32_2_0_01_1_n_n.rhsIdx i q 0).val = (q ⟨0, by decide⟩).val :=
  Cert.ReferenceIdeal.dot_S32x1024x170_S170x32_S32x1024x32_2_0_01_1_n_n.rhsIdx_val_of_single rfl i q
theorem rW32_rhs_1 (i : (⟨3, ![32, 1024, 32]⟩ : Shape).Idx) (q : Cert.ReferenceIdeal.dot_S32x1024x170_S170x32_S32x1024x32_2_0_01_1_n_n.contr.Idx) :
    (Cert.ReferenceIdeal.dot_S32x1024x170_S170x32_S32x1024x32_2_0_01_1_n_n.rhsIdx i q 1).val = (i 2).val := by
  unfold DotDims.rhsIdx
  rw [dif_neg (show ¬(1 : Fin Cert.ReferenceIdeal.S170x32.rank) ∈ Cert.ReferenceIdeal.dot_S32x1024x170_S170x32_S32x1024x32_2_0_01_1_n_n.rhsBatch by decide), dif_pos (show (1 : Fin Cert.ReferenceIdeal.S170x32.rank) ∈ Cert.ReferenceIdeal.dot_S32x1024x170_S170x32_S32x1024x32_2_0_01_1_n_n.rhsNonContracting by decide)]
  rfl

/-- (h W)(b, n, o) = Σ_f h(b, n, f) · W(f, o). -/
theorem rW32_apply (l : FVec Ideal ⟨3, ![32, 1024, 170]⟩ .f32) (r : FVec Ideal ⟨2, ![170, 32]⟩ .f32)
    (b : Fin 32) (n : Fin 1024) (o : Fin 32) :
    Host.dotGeneral Cert.ReferenceIdeal.dot_S32x1024x170_S170x32_S32x1024x32_2_0_01_1_n_n none l r (ix3 b n o) = ∑ k : Fin 170, l (ix3 b n k) * r (ix2 k o) := by
  simp only [Host.dotGeneral]
  rw [Ideal.dotGeneral_apply, ← Equiv.sum_comp (contrEquiv1 Cert.ReferenceIdeal.dot_S32x1024x170_S170x32_S32x1024x32_2_0_01_1_n_n 170 rfl rfl).symm]
  refine Finset.sum_congr rfl fun k _ => ?_
  have hk := contrEquiv1_symm_val Cert.ReferenceIdeal.dot_S32x1024x170_S170x32_S32x1024x32_2_0_01_1_n_n 170 rfl rfl k
  have el : Cert.ReferenceIdeal.dot_S32x1024x170_S170x32_S32x1024x32_2_0_01_1_n_n.lhsIdx (ix3 b n o) ((contrEquiv1 Cert.ReferenceIdeal.dot_S32x1024x170_S170x32_S32x1024x32_2_0_01_1_n_n 170 rfl rfl).symm k) = ix3 b n k := funext fun a => Fin.ext (by
    match a with
    | ⟨0, _⟩ => exact rW32_lhs_0 _ _
    | ⟨1, _⟩ => exact rW32_lhs_1 _ _
    | ⟨2, _⟩ => exact (rW32_lhs_2 _ _).trans hk)
  have er : Cert.ReferenceIdeal.dot_S32x1024x170_S170x32_S32x1024x32_2_0_01_1_n_n.rhsIdx (ix3 b n o) ((contrEquiv1 Cert.ReferenceIdeal.dot_S32x1024x170_S170x32_S32x1024x32_2_0_01_1_n_n 170 rfl rfl).symm k) = ix2 k o := funext fun a => Fin.ext (by
    match a with
    | ⟨0, _⟩ => exact (rW32_rhs_0 _ _).trans hk
    | ⟨1, _⟩ => exact rW32_rhs_1 _ _)
  rw [el, er]

end RefW32

/-! ## Batch b of a host product is the kernel's product of the batches -/

theorem bat_dotA (b : Fin 32) (l : FVec Ideal ⟨3, ![32, 1024, 1024]⟩ .f32) (r : FVec Ideal ⟨3, ![32, 1024, 34]⟩ .f32) :
    bat b (Host.dotGeneral Cert.ReferenceIdeal.dot_S32x1024x1024_S32x1024x34_S32x1024x34_2_1_1_2_0_0 none l r)
      = matmul Cert.KernelIdeal.dot_S1024x1024_S1024x34_S1024x34_1_0_0_1_n_n none (bat b l) (bat b r) (constant ⟨2, ![1024, 34]⟩ .f32 0x00000000#32) := by
  funext j
  obtain ⟨n, c, rfl⟩ : ∃ (n : Fin 1024) (c : Fin 34), j = ix2 n c := ⟨j 0, j 1, eq_ix2 j⟩
  exact (rA_apply l r b n c).trans (kA_apply (bat b l) (bat b r) n c).symm

theorem bat_dotW64 (b : Fin 32) (l : FVec Ideal ⟨3, ![32, 1024, 170]⟩ .f32) (w : FVec Ideal ⟨2, ![170, 64]⟩ .f32) :
    bat b (Host.dotGeneral Cert.ReferenceIdeal.dot_S32x1024x170_S170x64_S32x1024x64_2_0_01_1_n_n none l w)
      = matmul Cert.KernelIdeal.dot_S1024x170_S170x64_S1024x64_1_0_0_1_n_n none (bat b l) w (constant ⟨2, ![1024, 64]⟩ .f32 0x00000000#32) := by
  funext j
  obtain ⟨n, o, rfl⟩ : ∃ (n : Fin 1024) (o : Fin 64), j = ix2 n o := ⟨j 0, j 1, eq_ix2 j⟩
  exact (rW64_apply l w b n o).trans (kW64_apply (bat b l) w n o).symm

theorem bat_dotW32 (b : Fin 32) (l : FVec Ideal ⟨3, ![32, 1024, 170]⟩ .f32) (w : FVec Ideal ⟨2, ![170, 32]⟩ .f32) :
    bat b (Host.dotGeneral Cert.ReferenceIdeal.dot_S32x1024x170_S170x32_S32x1024x32_2_0_01_1_n_n none l w)
      = matmul Cert.KernelIdeal.dot_S1024x170_S170x32_S1024x32_1_0_0_1_n_n none (bat b l) w (constant ⟨2, ![1024, 32]⟩ .f32 0x00000000#32) := by
  funext j
  obtain ⟨n, o, rfl⟩ : ∃ (n : Fin 1024) (o : Fin 32), j = ix2 n o := ⟨j 0, j 1, eq_ix2 j⟩
  exact (rW32_apply l w b n o).trans (kW32_apply (bat b l) w n o).symm

end Cert.DCGRU

end
-- ==== Proof.Bridge.lean ====
/-
  The kernel's arithmetic at one grid point is batch t of the reference's. Both programs compute, per batch,
      cat   = [x | h]                               (34 columns)
      feats = [cat | A0 cat | A0 (A0 cat) | A1 cat | A1 (A1 cat)]   (170 columns)
      ru    = logistic (feats Wru + bru),   r = ru[:, 0:32],   u = ru[:, 32:64]
      cat'  = [x | r * h],   feats' as feats with cat' for cat
      cand  = tanh (feats' Wc + bc)
      out   = u * h + (1 - u) * cand
  the kernel on the matrices of batch t, the reference on the whole batched arrays. Taking batch t commutes with
  every operation of the reference (the layout operations, the element-by-element ones, and the products: a batched
  product, batch by batch, is the kernel's matrix product), so batch t of each of the reference's stages is the
  per-batch expression over batch t of the arguments. No law of arithmetic is used beyond the sums' being the same
  sums, so finiteness of the inputs plays no part.
  The per-batch expressions are named here (cat, hop, feats, gate, cand, cell); the kernel's payloads are these of the
  loaded vectors P, given what those are in terms of the arguments.
-/
import proofs.«139025_j3676492005530_1_alg».proof.Proof.Gen.KernelIdeal.Skeleton
import proofs.«139025_j3676492005530_1_alg».proof.Proof.RefRead
import proofs.«139025_j3676492005530_1_alg».proof.Proof.Batch
import proofs.«139025_j3676492005530_1_alg».proof.Proof.Maps
import proofs.«139025_j3676492005530_1_alg».proof.Proof.Dots

noncomputable section

namespace Cert.DCGRU

open Idealize.ShloMosaic Idealize.ShloMosaic.ValueIdx
open Cert.KernelIdeal.Gen Cert.ReferenceIdeal.ReadP

/-! ## The per-batch expressions -/

/-- [x | h]: 2 and 32 columns side by side. -/
def cat (x : FVec Ideal ⟨2, ![1024, 2]⟩ .f32) (h : FVec Ideal ⟨2, ![1024, 32]⟩ .f32) : FVec Ideal ⟨2, ![1024, 34]⟩ .f32 :=
  concatenate ⟨2, ![1024, 34]⟩ 1 [⟨⟨2, ![1024, 2]⟩, x⟩, ⟨⟨2, ![1024, 32]⟩, h⟩] cat_2_32_ok

/-- One diffusion step: a support matrix times the features. -/
def hop (a : FVec Ideal ⟨2, ![1024, 1024]⟩ .f32) (x : FVec Ideal ⟨2, ![1024, 34]⟩ .f32) : FVec Ideal ⟨2, ![1024, 34]⟩ .f32 :=
  matmul Cert.KernelIdeal.dot_S1024x1024_S1024x34_S1024x34_1_0_0_1_n_n none a x (constant ⟨2, ![1024, 34]⟩ .f32 0x00000000#32)

/-- The features and their one- and two-step diffusions under both supports, side by side. -/
def feats (a0 a1 : FVec Ideal ⟨2, ![1024, 1024]⟩ .f32) (x : FVec Ideal ⟨2, ![1024, 34]⟩ .f32) : FVec Ideal ⟨2, ![1024, 170]⟩ .f32 :=
  concatenate ⟨2, ![1024, 170]⟩ 1 [⟨⟨2, ![1024, 34]⟩, x⟩, ⟨⟨2, ![1024, 34]⟩, hop a0 x⟩, ⟨⟨2, ![1024, 34]⟩, hop a0 (hop a0 x)⟩,
    ⟨⟨2, ![1024, 34]⟩, hop a1 x⟩, ⟨⟨2, ![1024, 34]⟩, hop a1 (hop a1 x)⟩] cat_5x34_ok

/-- The two gates: logistic (feats [x | h] · Wru + bru). -/
def gate (a0 a1 : FVec Ideal ⟨2, ![1024, 1024]⟩ .f32) (x : FVec Ideal ⟨2, ![1024, 2]⟩ .f32) (h : FVec Ideal ⟨2, ![1024, 32]⟩ .f32)
    (wru : FVec Ideal ⟨2, ![170, 64]⟩ .f32) (bru : FVec Ideal ⟨1, ![64]⟩ .f32) : FVec Ideal ⟨2, ![1024, 64]⟩ .f32 :=
  logistic (addf (matmul Cert.KernelIdeal.dot_S1024x170_S170x64_S1024x64_1_0_0_1_n_n none (feats a0 a1 (cat x h)) wru (constant ⟨2, ![1024, 64]⟩ .f32 0x00000000#32)) (rowOf 1024 bru))

/-- The candidate's input [x | r * h], r the first 32 gate columns. -/
def cat' (g : FVec Ideal ⟨2, ![1024, 64]⟩ .f32) (x : FVec Ideal ⟨2, ![1024, 2]⟩ .f32) (h : FVec Ideal ⟨2, ![1024, 32]⟩ .f32)
    (hs : (⟨2, ![1024, 64]⟩ : Shape).Slices ![0, 0] ⟨2, ![1024, 32]⟩) : FVec Ideal ⟨2, ![1024, 34]⟩ .f32 :=
  cat x (mulf (extractStridedSlice ⟨2, ![1024, 32]⟩ ![0, 0] g hs) h)

/-- The new state: u * h + (1 - u) * tanh (feats c' · Wc + bc), u the last 32 gate columns. -/
def cell (a0 a1 : FVec Ideal ⟨2, ![1024, 1024]⟩ .f32) (g : FVec Ideal ⟨2, ![1024, 64]⟩ .f32) (c' : FVec Ideal ⟨2, ![1024, 34]⟩ .f32)
    (h : FVec Ideal ⟨2, ![1024, 32]⟩ .f32) (wc : FVec Ideal ⟨2, ![170, 32]⟩ .f32) (bc : FVec Ideal ⟨1, ![32]⟩ .f32)
    (hs : (⟨2, ![1024, 64]⟩ : Shape).Slices ![0, 32] ⟨2, ![1024, 32]⟩) : FVec Ideal ⟨2, ![1024, 32]⟩ .f32 :=
  addf (mulf (extractStridedSlice ⟨2, ![1024, 32]⟩ ![0, 32] g hs) h)
    (mulf (subf (broadcast ⟨2, ![1024, 32]⟩ (Scalar.ofBits (F := Ideal) .f32 0x3F800000#32)) (extractStridedSlice ⟨2, ![1024, 32]⟩ ![0, 32] g hs))
      (tanh (addf (matmul Cert.KernelIdeal.dot_S1024x170_S170x32_S1024x32_1_0_0_1_n_n none (feats a0 a1 c') wc (constant ⟨2, ![1024, 32]⟩ .f32 0x00000000#32)) (rowOf 1024 bc))))

/-! ## Batch t of the reference's stages -/

section Reference

variable (t : Fin 32)
variable (X : FVec Ideal ⟨3, ![32, 1024, 2]⟩ .f32) (A : FVec Ideal ⟨4, ![32, 2, 1024, 1024]⟩ .f32)
  (H : FVec Ideal ⟨3, ![32, 1024, 32]⟩ .f32) (Wru : FVec Ideal ⟨2, ![170, 64]⟩ .f32) (bru : FVec Ideal ⟨1, ![64]⟩ .f32)
  (Wc : FVec Ideal ⟨2, ![170, 32]⟩ .f32) (bc : FVec Ideal ⟨1, ![32]⟩ .f32)

theorem r_v0 : bat t (val_main_v0 (F := Ideal) X H) = cat (bat t X) (bat t H) := by
  unfold val_main_v0 cat
  exact bat_concat_2_32 t X H _

theorem r_v2 : bat t (val_main_v2 (F := Ideal) A) = slab t ⟨0, by decide⟩ A := by
  unfold val_main_v2 val_main_v1
  exact bat_slab t 0 A _ _

theorem r_v6 : bat t (val_main_v6 (F := Ideal) A) = slab t ⟨1, by decide⟩ A := by
  unfold val_main_v6 val_main_v5
  exact bat_slab t 1 A _ _

theorem r_v25 : bat t (val_main_v25 (F := Ideal) A) = slab t ⟨0, by decide⟩ A := by
  unfold val_main_v25 val_main_v24
  exact bat_slab t 0 A _ _

theorem r_v29 : bat t (val_main_v29 (F := Ideal) A) = slab t ⟨1, by decide⟩ A := by
  unfold val_main_v29 val_main_v28
  exact bat_slab t 1 A _ _

theorem r_v3 : bat t (val_main_v3 (F := Ideal) X A H) = hop (slab t ⟨0, by decide⟩ A) (cat (bat t X) (bat t H)) := by
  unfold val_main_v3 hop
  rw [bat_dotA, r_v2, r_v0]

theorem r_v4 : bat t (val_main_v4 (F := Ideal) X A H)
    = hop (slab t ⟨0, by decide⟩ A) (hop (slab t ⟨0, by decide⟩ A) (cat (bat t X) (bat t H))) := by
  unfold val_main_v4
  rw [bat_dotA, r_v2, r_v3]
  rfl

theorem r_v7 : bat t (val_main_v7 (F := Ideal) X A H) = hop (slab t ⟨1, by decide⟩ A) (cat (bat t X) (bat t H)) := by
  unfold val_main_v7 hop
  rw [bat_dotA, r_v6, r_v0]

theorem r_v8 : bat t (val_main_v8 (F := Ideal) X A H)
    = hop (slab t ⟨1, by decide⟩ A) (hop (slab t ⟨1, by decide⟩ A) (cat (bat t X) (bat t H))) := by
  unfold val_main_v8
  rw [bat_dotA, r_v6, r_v7]
  rfl

theorem r_v9 : bat t (val_main_v9 (F := Ideal) X A H)
    = feats (slab t ⟨0, by decide⟩ A) (slab t ⟨1, by decide⟩ A) (cat (bat t X) (bat t H)) := by
  unfold val_main_v9 feats
  rw [bat_concat_5x34, r_v0, r_v3, r_v4, r_v7, r_v8]

theorem r_v12 : bat t (val_main_v12 (F := Ideal) bru) = rowOf 1024 bru := by
  unfold val_main_v12 val_main_v11
  exact bat_bias t bru _ _

theorem r_v35 : bat t (val_main_v35 (F := Ideal) bc) = rowOf 1024 bc := by
  unfold val_main_v35 val_main_v34
  exact bat_bias t bc _ _

/-- The gates. -/
theorem r_v19 : bat t (val_main_v19 (F := Ideal) X A H Wru bru)
    = gate (slab t ⟨0, by decide⟩ A) (slab t ⟨1, by decide⟩ A) (bat t X) (bat t H) Wru bru := by
  unfold val_main_v19 val_main_v18 val_main_v17 val_main_v16 val_main_v15 val_main_v14 val_main_v13 val_main_v10
    val_main_cst val_main_cst_0 gate
  rw [bat_logistic, bat_addf, bat_dotW64, r_v9, r_v12]

/-- The candidate's input. -/
theorem r_v23 : bat t (val_main_v23 (F := Ideal) X A H Wru bru)
    = cat' (gate (slab t ⟨0, by decide⟩ A) (slab t ⟨1, by decide⟩ A) (bat t X) (bat t H) Wru bru) (bat t X) (bat t H)
        (slice_ok 0 Cert.ReferenceIdeal.Gen.slices_S32x1024x64_S32x1024x32_0_0_0) := by
  unfold val_main_v23 val_main_v22 val_main_v20 cat' cat
  rw [bat_concat_2_32, bat_mulf, bat_slice_64_32, r_v19]

theorem r_v26 : bat t (val_main_v26 (F := Ideal) X A H Wru bru)
    = hop (slab t ⟨0, by decide⟩ A) (bat t (val_main_v23 (F := Ideal) X A H Wru bru)) := by
  unfold val_main_v26 hop
  rw [bat_dotA, r_v25]

theorem r_v27 : bat t (val_main_v27 (F := Ideal) X A H Wru bru)
    = hop (slab t ⟨0, by decide⟩ A) (hop (slab t ⟨0, by decide⟩ A) (bat t (val_main_v23 (F := Ideal) X A H Wru bru))) := by
  unfold val_main_v27
  rw [bat_dotA, r_v25, r_v26]
  rfl

theorem r_v30 : bat t (val_main_v30 (F := Ideal) X A H Wru bru)
    = hop (slab t ⟨1, by decide⟩ A) (bat t (val_main_v23 (F := Ideal) X A H Wru bru)) := by
  unfold val_main_v30 hop
  rw [bat_dotA, r_v29]

theorem r_v31 : bat t (val_main_v31 (F := Ideal) X A H Wru bru)
    = hop (slab t ⟨1, by decide⟩ A) (hop (slab t ⟨1, by decide⟩ A) (bat t (val_main_v23 (F := Ideal) X A H Wru bru))) := by
  unfold val_main_v31
  rw [bat_dotA, r_v29, r_v30]
  rfl

theorem r_v32 : bat t (val_main_v32 (F := Ideal) X A H Wru bru)
    = feats (slab t ⟨0, by decide⟩ A) (slab t ⟨1, by decide⟩ A) (bat t (val_main_v23 (F := Ideal) X A H Wru bru)) := by
  unfold val_main_v32 feats
  rw [bat_concat_5x34, r_v26, r_v27, r_v30, r_v31]

/-- The result. -/
theorem r_v42 : bat t (val_main_v42 (F := Ideal) X A H Wru bru Wc bc)
    = cell (slab t ⟨0, by decide⟩ A) (slab t ⟨1, by decide⟩ A)
        (gate (slab t ⟨0, by decide⟩ A) (slab t ⟨1, by decide⟩ A) (bat t X) (bat t H) Wru bru)
        (bat t (val_main_v23 (F := Ideal) X A H Wru bru)) (bat t H) Wc bc
        (slice_ok 32 Cert.ReferenceIdeal.Gen.slices_S32x1024x64_S32x1024x32_0_0_32) := by
  unfold val_main_v42 val_main_v41 val_main_v40 val_main_v39 val_main_cst_1 val_main_v38 val_main_v37 val_main_v36 val_main_v33
    val_main_v21 cell
  rw [bat_addf, bat_mulf, bat_mulf, bat_subf, bat_splat, bat_tanh, bat_addf, bat_dotW32, bat_slice_64_32, r_v19, r_v32, r_v35]

end Reference

/-! ## The kernel's payloads -/

section Kernel

variable (t : Fin 32)
variable (X : FVec Ideal ⟨3, ![32, 1024, 2]⟩ .f32) (A : FVec Ideal ⟨4, ![32, 2, 1024, 1024]⟩ .f32)
  (H : FVec Ideal ⟨3, ![32, 1024, 32]⟩ .f32) (Wru : FVec Ideal ⟨2, ![170, 64]⟩ .f32) (bru : FVec Ideal ⟨1, ![64]⟩ .f32)
  (Wc : FVec Ideal ⟨2, ![170, 32]⟩ .f32) (bc : FVec Ideal ⟨1, ![32]⟩ .f32)
variable (P0 : Vec Ideal ⟨3, ![1, 1024, 32]⟩ .f32) (P1 : Vec Ideal ⟨2, ![170, 32]⟩ .f32) (P2 : Vec Ideal ⟨2, ![1, 32]⟩ .f32)
  (P3 : Vec Ideal ⟨3, ![1, 1024, 2]⟩ .f32) (P4 : Vec Ideal ⟨2, ![170, 64]⟩ .f32) (P5 : Vec Ideal ⟨2, ![1, 64]⟩ .f32)
  (P6 P7 : Vec Ideal ⟨4, ![1, 1, 1024, 1024]⟩ .f32)

/-- The kernel's gates are the gate expression of batch t of the arguments. -/
theorem k_gate
    (hH : shapeCast ⟨2, ![1024, 32]⟩ P0 shapeCasts_S1x1024x32_S1024x32 = bat t H)
    (hX : shapeCast ⟨2, ![1024, 2]⟩ P3 shapeCasts_S1x1024x2_S1024x2 = bat t X)
    (hWru : P4 = Wru)
    (hbru : P5 = shapeCast ⟨2, ![1, 64]⟩ bru shapeCasts_S64_S1x64)
    (hA0 : shapeCast ⟨2, ![1024, 1024]⟩ P6 shapeCasts_S1x1x1024x1024_S1024x1024 = slab t ⟨0, by decide⟩ A)
    (hA1 : shapeCast ⟨2, ![1024, 1024]⟩ P7 shapeCasts_S1x1x1024x1024_S1024x1024 = slab t ⟨1, by decide⟩ A) :
    k0_pay7 (F := Ideal) P3 P0 P4 P5 P6 P7
      = gate (slab t ⟨0, by decide⟩ A) (slab t ⟨1, by decide⟩ A) (bat t X) (bat t H) Wru bru := by
  subst hWru hbru
  dsimp only [k0_pay7, k0_pay4, k0_pay5]
  rw [hH, hX, hA0, hA1, row_bias]
  rfl

/-- The kernel's candidate input. -/
theorem k_cat'
    (hH : shapeCast ⟨2, ![1024, 32]⟩ P0 shapeCasts_S1x1024x32_S1024x32 = bat t H)
    (hX : shapeCast ⟨2, ![1024, 2]⟩ P3 shapeCasts_S1x1024x2_S1024x2 = bat t X)
    (hWru : P4 = Wru)
    (hbru : P5 = shapeCast ⟨2, ![1, 64]⟩ bru shapeCasts_S64_S1x64)
    (hA0 : shapeCast ⟨2, ![1024, 1024]⟩ P6 shapeCasts_S1x1x1024x1024_S1024x1024 = slab t ⟨0, by decide⟩ A)
    (hA1 : shapeCast ⟨2, ![1024, 1024]⟩ P7 shapeCasts_S1x1x1024x1024_S1024x1024 = slab t ⟨1, by decide⟩ A) :
    k0_pay9 (F := Ideal) P3 P0 P4 P5 P6 P7
      = cat' (gate (slab t ⟨0, by decide⟩ A) (slab t ⟨1, by decide⟩ A) (bat t X) (bat t H) Wru bru) (bat t X) (bat t H)
          (slice_ok 0 Cert.ReferenceIdeal.Gen.slices_S32x1024x64_S32x1024x32_0_0_0) := by
  dsimp only [k0_pay9, k0_pay4, k0_pay5]
  rw [k_gate t X A H Wru bru P0 P3 P4 P5 P6 P7 hH hX hWru hbru hA0 hA1, hH, hX]
  rfl

/-- The whole body: what the kernel stores at grid point t is batch t of the reference's result. -/
theorem pay_eq
    (hH : shapeCast ⟨2, ![1024, 32]⟩ P0 shapeCasts_S1x1024x32_S1024x32 = bat t H)
    (hWc : P1 = Wc)
    (hbc : P2 = shapeCast ⟨2, ![1, 32]⟩ bc shapeCasts_S32_S1x32)
    (hX : shapeCast ⟨2, ![1024, 2]⟩ P3 shapeCasts_S1x1024x2_S1024x2 = bat t X)
    (hWru : P4 = Wru)
    (hbru : P5 = shapeCast ⟨2, ![1, 64]⟩ bru shapeCasts_S64_S1x64)
    (hA0 : shapeCast ⟨2, ![1024, 1024]⟩ P6 shapeCasts_S1x1x1024x1024_S1024x1024 = slab t ⟨0, by decide⟩ A)
    (hA1 : shapeCast ⟨2, ![1024, 1024]⟩ P7 shapeCasts_S1x1x1024x1024_S1024x1024 = slab t ⟨1, by decide⟩ A) :
    k0_pay1 (F := Ideal) (shapeCast ⟨2, ![1024, 32]⟩ P0 shapeCasts_S1x1024x32_S1024x32) P1
        (shapeCast ⟨2, ![1, 32]⟩ P2 shapeCasts_S1x32_S1x32)
        (extractStridedSlice ⟨2, ![1024, 32]⟩ ![0, 32] (k0_pay7 P3 P0 P4 P5 P6 P7) slices_S1024x64_o0_32_S1024x32)
        (k0_pay9 P3 P0 P4 P5 P6 P7) P6 P7
      = bat t (val_main_v42 (F := Ideal) X A H Wru bru Wc bc) := by
  rw [r_v42, r_v23]
  rw [k_gate t X A H Wru bru P0 P3 P4 P5 P6 P7 hH hX hWru hbru hA0 hA1,
    k_cat' t X A H Wru bru P0 P3 P4 P5 P6 P7 hH hX hWru hbru hA0 hA1]
  subst hWc hbc
  dsimp only [k0_pay1]
  rw [hH, hA0, hA1, row_bias]
  rfl

end Kernel

end Cert.DCGRU

end
-- ==== Proof.KernelValue.lean ====
/-
  The idealized kernel's two result arrays after its run are the reference's result function G of the argument
  arrays. Grid point t stores, through both output windows, batch t of G (the body's arithmetic is batch t of the
  reference's, and the loads are the batches of the arguments); the 32 output blocks, one per batch, tile the
  result array; so after the last point each array is G.
-/
import proofs.«139025_j3676492005530_1_alg».proof.Proof.Gen.KernelIdeal.Value
import proofs.«139025_j3676492005530_1_alg».proof.Proof.Blocks
import proofs.«139025_j3676492005530_1_alg».proof.Proof.Bridge

noncomputable section

namespace Cert.KernelIdeal.RefValue

open Cert.KernelIdeal Cert.KernelIdeal.Gen Cert.KernelIdeal.Value Cert.KernelIdeal.Blocks
open Idealize.ShloMosaic Idealize.ShloMosaic.TcCoe Idealize.SL.Sem Idealize.ShloMosaic.ValueIdx Cert.DCGRU
open Idealize.ShloMosaic.Pipeline (Dat)

variable (m : (ℓ : Loc nD τ sig) → Buf (Elt Ideal) ℓ) (ρ : Dev nD → PrngReg)

/-- The result as ONE function of the seven argument arrays: the reference's composed operations. -/
abbrev G (x0 : S32x1024x2.Idx → EReal) (x1 : S32x2x1024x1024.Idx → EReal) (x2 : S32x1024x32.Idx → EReal)
    (x3 : S170x64.Idx → EReal) (x4 : S64.Idx → EReal) (x5 : S170x32.Idx → EReal) (x6 : S32.Idx → EReal) :
    S32x1024x32.Idx → EReal :=
  Cert.ReferenceIdeal.ReadP.val_main_v42 (F := Ideal) x0 x1 x2 x3 x4 x5 x6

/-- G of the arguments as device c holds them at launch. -/
abbrev Gm (c : Dev nD) : S32x1024x32.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The body's value at grid point t, over the blocks the point loads, is batch t of G. -/
theorem pay_at (c : Dev nD) (t : Fin cfg0.N) :
    k0_pay1 (F := Ideal) (shapeCast S1024x32 (View.ld (iblk m c 2 t) r0_1) shapeCasts_S1x1024x32_S1024x32) (View.ld (iblk m c 5 t) r0_4)
        (shapeCast S1x32 (View.ld (iblk m c 6 t) r0_5) shapeCasts_S1x32_S1x32)
        (extractStridedSlice S1024x32 ![0, 32]
          (k0_pay7 (View.ld (iblk m c 0 t) r0_0) (View.ld (iblk m c 2 t) r0_1) (View.ld (iblk m c 3 t) r0_2) (View.ld (iblk m c 4 t) r0_3)
            (View.ld (iblk m c 1 t) r0_6) (View.ld (iblk m c 1 t) r0_7)) slices_S1024x64_o0_32_S1024x32)
        (k0_pay9 (View.ld (iblk m c 0 t) r0_0) (View.ld (iblk m c 2 t) r0_1) (View.ld (iblk m c 3 t) r0_2) (View.ld (iblk m c 4 t) r0_3)
          (View.ld (iblk m c 1 t) r0_6) (View.ld (iblk m c 1 t) r0_7))
        (View.ld (iblk m c 1 t) r0_6) (View.ld (iblk m c 1 t) r0_7)
      = bat (batchOf t) (Gm m c) :=
  pay_eq (batchOf t) _ _ _ _ _ _ _ _ _ _ _ _ _ _ _
    ((states_blk m c t).trans (congrArg (bat (batchOf t)) (V_main_arg2 m c)))
    ((wc_blk m c t).trans (V_main_arg5 m c))
    ((bc_blk m c t).trans (bc_host m c))
    ((inputs_blk m c t).trans (congrArg (bat (batchOf t)) (V_main_arg0 m c)))
    ((wru_blk m c t).trans (V_main_arg3 m c))
    ((bru_blk m c t).trans (bru_host m c))
    ((supports_blk0 m c t).trans (congrArg (slab (batchOf t) (0 : Fin 2)) (V_main_arg1 m c)))
    ((supports_blk1 m c t).trans (congrArg (slab (batchOf t) (1 : Fin 2)) (V_main_arg1 m c)))

/-- What point t writes back through output window 7 is block t of G. -/
theorem flushed7_eq (c : Dev nD) (t : Fin cfg0.N) :
    (dats m 0 c).flushed 7 t = ((cfg0.win 7).blk t).view.read (Elt Ideal) (Gm m c) := by
  rw [Value.flushed7]
  unfold out0_7
  funext y
  refine (Value.canon7_eq (F := Ideal) (View.ld (iblk m c 2 t) r0_1) (View.ld (iblk m c 5 t) r0_4) (View.ld (iblk m c 6 t) r0_5)
    (View.ld (iblk m c 0 t) r0_0) (View.ld (iblk m c 3 t) r0_2) (View.ld (iblk m c 4 t) r0_3) (View.ld (iblk m c 1 t) r0_6)
    (View.ld (iblk m c 1 t) r0_7) y).trans ?_
  refine (congrFun (pay_at m c t) (Value.ix7_0 y)).trans ?_
  show Gm m c (ix3 (batchOf t) (Value.ix7_0 y 0) (Value.ix7_0 y 1)) = Gm m c (((cfg0.win 7).blk t).view.emb y)
  obtain ⟨-, -, -, -, -, -, -, ⟨e0, e1, e2⟩, -⟩ := idx_facts t
  have h0 : (y 0).val < 1 := (y 0).isLt
  refine congrArg _ (funext fun a => Fin.ext ?_)
  match a with
  | ⟨0, _⟩ => show t.val = win0_7.index t (0 : Fin 3) * 1 + 1 * (y 0).val; omega
  | ⟨1, _⟩ => show (y 1).val = win0_7.index t (1 : Fin 3) * 1024 + 1 * (y 1).val; omega
  | ⟨2, _⟩ => show (y 2).val = win0_7.index t (2 : Fin 3) * 32 + 1 * (y 2).val; omega

/-- The same through output window 8, which stores the same value. -/
theorem flushed8_eq (c : Dev nD) (t : Fin cfg0.N) :
    (dats m 0 c).flushed 8 t = ((cfg0.win 8).blk t).view.read (Elt Ideal) (Gm m c) := by
  rw [Value.flushed8]
  unfold out0_8
  funext y
  refine (Value.canon8_eq (F := Ideal) (View.ld (iblk m c 2 t) r0_1) (View.ld (iblk m c 5 t) r0_4) (View.ld (iblk m c 6 t) r0_5)
    (View.ld (iblk m c 0 t) r0_0) (View.ld (iblk m c 3 t) r0_2) (View.ld (iblk m c 4 t) r0_3) (View.ld (iblk m c 1 t) r0_6)
    (View.ld (iblk m c 1 t) r0_7) y).trans ?_
  refine (congrFun (pay_at m c t) (Value.ix8_0 y)).trans ?_
  show Gm m c (ix3 (batchOf t) (Value.ix8_0 y 0) (Value.ix8_0 y 1)) = Gm m c (((cfg0.win 8).blk t).view.emb y)
  obtain ⟨-, -, -, -, -, -, -, -, ⟨e0, e1, e2⟩⟩ := idx_facts t
  have h0 : (y 0).val < 1 := (y 0).isLt
  refine congrArg _ (funext fun a => Fin.ext ?_)
  match a with
  | ⟨0, _⟩ => show t.val = win0_8.index t (0 : Fin 3) * 1 + 1 * (y 0).val; omega
  | ⟨1, _⟩ => show (y 1).val = win0_8.index t (1 : Fin 3) * 1024 + 1 * (y 1).val; omega
  | ⟨2, _⟩ => show (y 2).val = win0_8.index t (2 : Fin 3) * 32 + 1 * (y 2).val; omega

/-- An index is in point t's block of window 7 iff each coordinate is in the block's range on its axis. -/
theorem mem_blk7 (t : Fin cfg0.N) (i : S32x1024x32.Idx) :
    i ∈ ((cfg0.win 7).blk t).view.set ↔ ∀ a : Fin 3, win0_7.index t a * S1x1024x32.size a ≤ (i a).val
      ∧ (i a).val < win0_7.index t a * S1x1024x32.size a + S1x1024x32.size a := by
  show i ∈ ((View.whole main_v2_0).slice (win0_7.rect t)).set ↔ _
  rw [View.set_slice_whole, Rect.mem_set_unit]
  exact Iff.rfl

theorem mem_blk8 (t : Fin cfg0.N) (i : S32x1024x32.Idx) :
    i ∈ ((cfg0.win 8).blk t).view.set ↔ ∀ a : Fin 3, win0_8.index t a * S1x1024x32.size a ≤ (i a).val
      ∧ (i a).val < win0_8.index t a * S1x1024x32.size a + S1x1024x32.size a := by
  show i ∈ ((View.whole main_v2_1).slice (win0_8.rect t)).set ↔ _
  rw [View.set_slice_whole, Rect.mem_set_unit]
  exact Iff.rfl

/-- Every index of the result lies in the block of the point that works on its batch. -/
theorem cover7 (i : S32x1024x32.Idx) : ∃ t : Fin cfg0.N, (cfg0.win 7).flush t = true ∧ i ∈ ((cfg0.win 7).blk t).view.set := by
  refine ⟨Fin.cast N_0.symm (i 0), flush0_7 _, ?_⟩
  rw [mem_blk7]
  obtain ⟨-, -, -, -, -, -, -, ⟨e0, e1, e2⟩, -⟩ := idx_facts (Fin.cast N_0.symm (i 0))
  have h1 : (i 1).val < 1024 := (i 1).isLt
  have h2 : (i 2).val < 32 := (i 2).isLt
  have ev : (Fin.cast N_0.symm (i 0)).val = (i 0).val := rfl
  intro a
  match a with
  | ⟨0, _⟩ => show win0_7.index (Fin.cast N_0.symm (i 0)) (0 : Fin 3) * 1 ≤ (i 0).val ∧ (i 0).val < win0_7.index (Fin.cast N_0.symm (i 0)) (0 : Fin 3) * 1 + 1; omega
  | ⟨1, _⟩ => show win0_7.index (Fin.cast N_0.symm (i 0)) (1 : Fin 3) * 1024 ≤ (i 1).val ∧ (i 1).val < win0_7.index (Fin.cast N_0.symm (i 0)) (1 : Fin 3) * 1024 + 1024; omega
  | ⟨2, _⟩ => show win0_7.index (Fin.cast N_0.symm (i 0)) (2 : Fin 3) * 32 ≤ (i 2).val ∧ (i 2).val < win0_7.index (Fin.cast N_0.symm (i 0)) (2 : Fin 3) * 32 + 32; omega

theorem cover8 (i : S32x1024x32.Idx) : ∃ t : Fin cfg0.N, (cfg0.win 8).flush t = true ∧ i ∈ ((cfg0.win 8).blk t).view.set := by
  refine ⟨Fin.cast N_0.symm (i 0), flush0_8 _, ?_⟩
  rw [mem_blk8]
  obtain ⟨-, -, -, -, -, -, -, -, ⟨e0, e1, e2⟩⟩ := idx_facts (Fin.cast N_0.symm (i 0))
  have h1 : (i 1).val < 1024 := (i 1).isLt
  have h2 : (i 2).val < 32 := (i 2).isLt
  have ev : (Fin.cast N_0.symm (i 0)).val = (i 0).val := rfl
  intro a
  match a with
  | ⟨0, _⟩ => show win0_8.index (Fin.cast N_0.symm (i 0)) (0 : Fin 3) * 1 ≤ (i 0).val ∧ (i 0).val < win0_8.index (Fin.cast N_0.symm (i 0)) (0 : Fin 3) * 1 + 1; omega
  | ⟨1, _⟩ => show win0_8.index (Fin.cast N_0.symm (i 0)) (1 : Fin 3) * 1024 ≤ (i 1).val ∧ (i 1).val < win0_8.index (Fin.cast N_0.symm (i 0)) (1 : Fin 3) * 1024 + 1024; omega
  | ⟨2, _⟩ => show win0_8.index (Fin.cast N_0.symm (i 0)) (2 : Fin 3) * 32 ≤ (i 2).val ∧ (i 2).val < win0_8.index (Fin.cast N_0.symm (i 0)) (2 : Fin 3) * 32 + 32; omega

/-- After the run the first result array is G of the arguments, -/
theorem final7 (c : Dev nD) : (dats m 0 c).arrAt 7 cfg0.N = Gm m c :=
  (dats m 0 c).arrAt_eq_of_cover 7 (Gm m c) (fun t _ => flushed7_eq m c t) cover7

/-- and so is the second. -/
theorem final8 (c : Dev nD) : (dats m 0 c).arrAt 8 cfg0.N = Gm m c :=
  (dats m 0 c).arrAt_eq_of_cover 8 (Gm m c) (fun t _ => flushed8_eq m c t) cover8

/-- The idealized kernel's run: it terminates with both results at G of the arguments, the arguments unchanged. -/
theorem run : θ_run defs (onTc (τ := τ) (main (F := Ideal))) ⟨m, fun _ => 0, ρ⟩ fun r => ∀ c : Dev nD,
      r.2.mem ((c : Thread nD τ).loc main_v2_0) = Gm m c
      ∧ r.2.mem ((c : Thread nD τ).loc main_v2_1) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Value.run_blocks m ρ)

end Cert.KernelIdeal.RefValue

end
-- ==== Proof.lean ====
/-
  The certificate of a diffusion-convolutional GRU cell: a Pallas kernel with one grid point per batch against its
  batched jnp reference.

  Per batch both programs compute, from inputs x [1024, 2], states h [1024, 32], two support matrices A0, A1
  [1024, 1024] and the weights,
      cat   = [x | h],   feats = [cat | A0 cat | A0 (A0 cat) | A1 cat | A1 (A1 cat)]
      ru    = logistic (feats Wru + bru),   r = ru[:, 0:32],   u = ru[:, 32:64]
      cand  = tanh (feats' Wc + bc)   with feats' built from [x | r * h]
      out   = u * h + (1 - u) * cand,
  and return it twice. At the extended reals the kernel's matmul into a zero accumulator and the host's batched
  dot_general are the same sums, its one logistic operation is the host's 1 / (1 + exp (-x)), tanh is one function
  on both sides, and the constant 1.0 is the same word; so the two programs are the same function of the arguments,
  with no appeal to finiteness.

  The three frames: the two kernels' are their generated frame certificates, the reference's is its run with the
  results dropped. The idealization rewrote nothing, so the kernel is its own idealization. The value claim: the
  idealized kernel's run leaves both results at G of the arguments (Proof/KernelValue.lean), where G is the
  reference's composed operations, and the reference's run leaves its result at G of its own arguments, which agree.
-/
import proofs.«139025_j3676492005530_1_alg».proof.Defs
import proofs.«139025_j3676492005530_1_alg».proof.Proof.Gen.Kernel
import proofs.«139025_j3676492005530_1_alg».proof.Proof.Gen.Kernel.Skeleton
import proofs.«139025_j3676492005530_1_alg».proof.Proof.Gen.Kernel.Launch
import proofs.«139025_j3676492005530_1_alg».proof.Proof.Gen.Kernel.Points
import proofs.«139025_j3676492005530_1_alg».proof.Proof.Gen.Kernel.Frame
import proofs.«139025_j3676492005530_1_alg».proof.Proof.Gen.KernelIdeal
import proofs.«139025_j3676492005530_1_alg».proof.Proof.Gen.KernelIdeal.Skeleton
import proofs.«139025_j3676492005530_1_alg».proof.Proof.Gen.KernelIdeal.Launch
import proofs.«139025_j3676492005530_1_alg».proof.Proof.Gen.KernelIdeal.Points
import proofs.«139025_j3676492005530_1_alg».proof.Proof.Gen.KernelIdeal.Frame
import proofs.«139025_j3676492005530_1_alg».proof.Proof.Gen.ReferenceIdeal
import proofs.«139025_j3676492005530_1_alg».proof.Proof.Gen.Pre_finite_inputs
import proofs.«139025_j3676492005530_1_alg».proof.Proof.Gen.KernelIdeal.Value
import proofs.«139025_j3676492005530_1_alg».proof.Proof.RefRun
import proofs.«139025_j3676492005530_1_alg».proof.Proof.RefRead
import proofs.«139025_j3676492005530_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs end with their results at G of their arguments, and the arguments agree. -/
theorem algebraic : Cert.algebraic_KernelIdeal_ReferenceIdeal := by
  intro m ρ m' ρ' _ hagree
  refine ⟨fun c => Cert.KernelIdeal.RefValue.Gm m c, fun c => Cert.KernelIdeal.RefValue.Gm m c,
    Cert.KernelIdeal.RefValue.run m ρ, ?_⟩
  refine (θ_run Cert.ReferenceIdeal.defs _ _).mono (fun _ h c => ?_) (Cert.ReferenceIdeal.ValueP.run (F := Ideal) m' ρ')
  have e : Cert.ReferenceIdeal.ValueP.res_main_v42 m' c = Cert.KernelIdeal.RefValue.Gm m c := by
    rw [Cert.ReferenceIdeal.ReadP.val_main_v42_eq, (hagree c).1, (hagree c).2.1, (hagree c).2.2.1, (hagree c).2.2.2.1,
      (hagree c).2.2.2.2.1, (hagree c).2.2.2.2.2.1, (hagree c).2.2.2.2.2.2]
  exact ⟨(h c).1.trans e, (h c).2.1.trans e, (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
